-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S64x512x2048 : S_.BroadcastsInDim S64x512x2048 (![] : Fin 0 → Fin S64x512x2048.rank)
  reducesTo_S64x512x2048_S_d0_1_2 : S64x512x2048.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S512 .f32) (main_arg5 : FVec F S1x512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  main_v28

def fn {F : FTy → Type} [FloatOps F] (main_arg0 : FVec F S64x1024 .f32) (main_arg1 : FVec F S64x512x2048 .f32) (main_arg2 : FVec F S512x1024 .f32) (main_arg3 : FVec F S512x2048 .f32) (main_arg4 : FVec F S512 .f32) (main_arg5 : FVec F S1x512 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x512x2048 .f32 := Host.absf main_arg1
  let main_cst_0 : FVec F S_ .f32 := constant S_ .f32 0x7F800000#32
  let main_v5 : FVec F S64x512x2048 .f32 := broadcastInDim S64x512x2048 ![] bcast_S_S64x512x2048 main_cst_0
  let main_v6 : IVec S64x512x2048 1 := cmpf .olt main_v4 main_v5
  let main_c_1 : IVec S_ 1 := constantI S_ 1 1#1
  let main_v7 : IVec S_ 1 := (fun x v => Host.reduce IntOp.andi x v reducesTo_S64x512x2048_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_v13 main_v16
-- ==== Kernel.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S64x512x1 : Shape := ⟨3, ![64, 512, 1]⟩
abbrev S8x1024 : Shape := ⟨2, ![8, 1024]⟩
abbrev S8x128x2048 : Shape := ⟨3, ![8, 128, 2048]⟩
abbrev S8x128x1 : Shape := ⟨3, ![8, 128, 1]⟩
abbrev S8x512 : Shape := ⟨2, ![8, 512]⟩
abbrev S1024x2048 : Shape := ⟨2, ![1024, 2048]⟩
abbrev S1024x512 : Shape := ⟨2, ![1024, 512]⟩
abbrev S8x128x512 : Shape := ⟨3, ![8, 128, 512]⟩
abbrev S8x1x512 : Shape := ⟨3, ![8, 1, 512]⟩
abbrev S1x1x512 : Shape := ⟨3, ![1, 1, 512]⟩
abbrev S8x128 : Shape := ⟨2, ![8, 128]⟩
abbrev S64x512 : Shape := ⟨2, ![64, 512]⟩
abbrev S_ : Shape := ⟨0, ![]⟩
abbrev S64 : Shape := ⟨1, ![64]⟩
abbrev S64x1 : Shape := ⟨2, ![64, 1]⟩
abbrev S64x2048 : Shape := ⟨2, ![64, 2048]⟩
abbrev S8x2048 : Shape := ⟨2, ![8, 2048]⟩

abbrev nBuf : Space → Nat
  | .hbm => 24
  | .vmem => 17
  | .smem => 0
  | _ => 0

abbrev bufTy : (tb : Table) → Fin (tcTables nBuf tb) → BufTy
  | .hbm, ⟨0, _⟩ => ⟨S64x1024, .f32⟩
  | .hbm, ⟨1, _⟩ => ⟨S64x512x2048, .f32⟩
  | .hbm, ⟨2, _⟩ => ⟨S512x1024, .f32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S64x512x1, .f32⟩
  | .hbm, ⟨7, _⟩ => ⟨S64x512, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x512, .f32⟩
  | .hbm, ⟨15, _⟩ => ⟨S64x512, .f32⟩
  | .hbm, ⟨16, _⟩ => ⟨S64x512, .f32⟩
  | .hbm, ⟨17, _⟩ => ⟨S_, .f32⟩
  | .hbm, ⟨18, _⟩ => ⟨S64, .f32⟩
  | .hbm, ⟨19, _⟩ => ⟨S64x1, .f32⟩
  | .hbm, ⟨20, _⟩ => ⟨S64x512, .f32⟩
  | .hbm, ⟨21, _⟩ => ⟨S64x512, .f32⟩
  | .hbm, ⟨22, _⟩ => ⟨S64x512x1, .f32⟩
  | .hbm, ⟨23, _⟩ => ⟨S64x2048, .f32⟩
  | .local _ .vmem, ⟨0, _⟩ => ⟨S8x1024, .f32⟩
  | .local _ .vmem, ⟨1, _⟩ => ⟨S8x1024, .f32⟩
  | .local _ .vmem, ⟨2, _⟩ => ⟨S8x128x2048, .f32⟩
  | .local _ .vmem, ⟨3, _⟩ => ⟨S8x128x2048, .f32⟩
  | .local _ .vmem, ⟨4, _⟩ => ⟨S512x1024, .f32⟩
  | .local _ .vmem, ⟨5, _⟩ => ⟨S512x2048, .f32⟩
  | .local _ .vmem, ⟨6, _⟩ => ⟨S512, .f32⟩
  | .local _ .vmem, ⟨7, _⟩ => ⟨S1x512, .f32⟩
  | .local _ .vmem, ⟨8, _⟩ => ⟨S8x128x1, .f32⟩
  | .local _ .vmem, ⟨9, _⟩ => ⟨S8x128x1, .f32⟩
  | .local _ .vmem, ⟨10, _⟩ => ⟨S8x128x2048, .f32⟩
  | .local _ .vmem, ⟨11, _⟩ => ⟨S8x128x2048, .f32⟩
  | .local _ .vmem, ⟨12, _⟩ => ⟨S8x128x1, .f32⟩
  | .local _ .vmem, ⟨13, _⟩ => ⟨S8x128x1, .f32⟩
  | .local _ .vmem, ⟨14, _⟩ => ⟨S8x2048, .f32⟩
  | .local _ .vmem, ⟨15, _⟩ => ⟨S8x2048, .f32⟩
  | .local _ .vmem, ⟨16, _⟩ => ⟨S8x2048, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x1024_S8x1024_0_0 : ∀ a, (![0, 0] : Fin 2 → Nat) a + S8x1024.size a ≤ S8x1024.size a
  h_S8x1024 : 0 < S8x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S8x128x2048_S8x128x2048_0_0_0 : ∀ a, (![0, 0, 0] : Fin 3 → Nat) a + S8x128x2048.size a ≤ S8x128x2048.size a
  h_S8x128x2048 : 0 < S8x128x2048.numel
  shapeCasts_S8x128x2048_S1024x2048 : S8x128x2048.ShapeCasts S1024x2048
  inb_S512x2048_S512x2048_0_0 : ∀ a, (![0, 0] : Fin 2 → Nat) a + S512x2048.size a ≤ S512x2048.size a
  h_S512x2048 : 0 < S512x2048.numel
  shapeCasts_S1024x512_S8x128x512 : S1024x512.ShapeCasts S8x128x512
  inb_S512_S512_0 : ∀ a, (![0] : Fin 1 → Nat) a + S512.size a ≤ S512.size a
  h_S512 : 0 < S512.numel
  shapeCasts_S8x512_S8x1x512 : S8x512.ShapeCasts S8x1x512
  broadcasts_S8x1x512_S8x128x512 : S8x1x512.Broadcasts S8x128x512
  shapeCasts_S512_S1x1x512 : S512.ShapeCasts S1x1x512
  broadcasts_S1x1x512_S8x128x512 : S1x1x512.Broadcasts S8x128x512
  inb_S1x512_S1x512_0_0 : ∀ a, (![0, 0] : Fin 2 → Nat) a + S1x512.size a ≤ S1x512.size a
  h_S1x512 : 0 < S1x512.numel
  shapeCasts_S1x512_S512 : S1x512.ShapeCasts S512
  reduces_S8x128x512_S8x128 : S8x128x512.Reduces [2] S8x128
  shapeCasts_S8x128_S8x128x1 : S8x128.ShapeCasts S8x128x1
  inb_S8x128x1_S8x128x1_0_0_0 : ∀ a, (![0, 0, 0] : Fin 3 → Nat) a + S8x128x1.size a ≤ S8x128x1.size a
  h_S8x128x1 : 0 < S8x128x1.numel
  shapeCasts_S64x512x1_S64x512 : S64x512x1.ShapeCasts S64x512
  reducesTo_S64x512_S64_d1 : S64x512.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x512_0_1 : S64x1.BroadcastsInDim S64x512 (![0, 1] : Fin 2 → Fin S64x512.rank)
  bcast_S64x512_S64x512x1_0_1 : S64x512.BroadcastsInDim S64x512x1 (![0, 1] : Fin 2 → Fin S64x512x1.rank)
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S8x128x1_S8x128x1 : S8x128x1.ShapeCasts S8x128x1
  broadcasts_S8x128x1_S8x128x2048 : S8x128x1.Broadcasts S8x128x2048
  reduces_S8x128x2048_S8x2048 : S8x128x2048.Reduces [1] S8x2048
  dot_S8x1024_S512x1024_S8x512_1_1_0_0_n_n_wf : DotDims.WF S8x1024 S512x1024 S8x512 [1] [1] [0] [0] [] []
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S64x1024.size a
  hwx0_0 : ∀ i : grid0.Coords, EltTy.bits .f32 = 32 ∨ (Rect.block (s := S64x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S64x512x2048.size a
  hwx0_1 : ∀ i : grid0.Coords, EltTy.bits .f32 = 32 ∨ (Rect.block (s := S64x512x2048) S8x128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .f32 = 32 ∨ (Rect.block (s := S512x2048) S512x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128x1.size a ≤ S64x512x1.size a
  hwx0_6 : ∀ i : grid0.Coords, EltTy.bits .f32 = 32 ∨ (Rect.block (s := S64x512x1) S8x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S64x512x2048.size a
  hwx1_0 : ∀ i : grid1.Coords, EltTy.bits .f32 = 32 ∨ (Rect.block (s := S64x512x2048) S8x128x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128x1.size a ≤ S64x512x1.size a
  hwx1_1 : ∀ i : grid1.Coords, EltTy.bits .f32 = 32 ∨ (Rect.block (s := S64x512x1) S8x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2048.size a ≤ S64x2048.size a
  hwx1_2 : ∀ i : grid1.Coords, EltTy.bits .f32 = 32 ∨ (Rect.block (s := S64x2048) S8x2048.size (cc1_transform_2 i) (hinb1_2 i)).WholeWords (EltTy.packing .f32)

variable [Facts₀]

def dot_S8x1024_S512x1024_S8x512_1_1_0_0_n_n : DotDims S8x1024 S512x1024 S8x512 where
  lhsContracting := [1]
  rhsContracting := [1]
  lhsNonContracting := [0]
  rhsNonContracting := [0]
  lhsBatch := []
  rhsBatch := []
  wf := dot_S8x1024_S512x1024_S8x512_1_1_0_0_n_n_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S8x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S8x128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S1024x512 : Shape := ⟨2, ![1024, 512]⟩
abbrev S64x512 : Shape := ⟨2, ![64, 512]⟩
abbrev S64x512x512 : Shape := ⟨3, ![64, 512, 512]⟩
abbrev S64x1x512 : Shape := ⟨3, ![64, 1, 512]⟩
abbrev S1x1x512 : Shape := ⟨3, ![1, 1, 512]⟩
abbrev S64x512x1 : Shape := ⟨3, ![64, 512, 1]⟩
abbrev S_ : Shape := ⟨0, ![]⟩
abbrev S64x1 : Shape := ⟨2, ![64, 1]⟩
abbrev S64x1x1 : Shape := ⟨3, ![64, 1, 1]⟩
abbrev S64x2048 : Shape := ⟨2, ![64, 2048]⟩

abbrev nBuf : Space → Nat
  | .hbm => 35
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x512x2048, .f32⟩
  | .hbm, ⟨2, _⟩ => ⟨S512x1024, .f32⟩
  | .hbm, ⟨3, _⟩ => ⟨S512x2048, .f32⟩
  | .hbm, ⟨4, _⟩ => ⟨S512, .f32⟩
  | .hbm, ⟨5, _⟩ => ⟨S1x512, .f32⟩
  | .hbm, ⟨6, _⟩ => ⟨S1024x512, .f32⟩
  | .hbm, ⟨7, _⟩ => ⟨S64x512, .f32⟩
  | .hbm, ⟨8, _⟩ => ⟨S64x512x512, .f32⟩
  | .hbm, ⟨9, _⟩ => ⟨S64x1x512, .f32⟩
  | .hbm, ⟨10, _⟩ => ⟨S64x512x512, .f32⟩
  | .hbm, ⟨11, _⟩ => ⟨S64x512x512, .f32⟩
  | .hbm, ⟨12, _⟩ => ⟨S1x1x512, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S64x512x1, .f32⟩
  | .hbm, ⟨17, _⟩ => ⟨S_, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x1x1, .f32⟩
  | .hbm, ⟨23, _⟩ => ⟨S64x512x1, .f32⟩
  | .hbm, ⟨24, _⟩ => ⟨S64x512x1, .f32⟩
  | .hbm, ⟨25, _⟩ => ⟨S64x512x1, .f32⟩
  | .hbm, ⟨26, _⟩ => ⟨S_, .f32⟩
  | .hbm, ⟨27, _⟩ => ⟨S64x1, .f32⟩
  | .hbm, ⟨28, _⟩ => ⟨S64x1x1, .f32⟩
  | .hbm, ⟨29, _⟩ => ⟨S64x512x1, .f32⟩
  | .hbm, ⟨30, _⟩ => ⟨S64x512x1, .f32⟩
  | .hbm, ⟨31, _⟩ => ⟨S64x512x2048, .f32⟩
  | .hbm, ⟨32, _⟩ => ⟨S64x512x2048, .f32⟩
  | .hbm, ⟨33, _⟩ => ⟨S_, .f32⟩
  | .hbm, ⟨34, _⟩ => ⟨S64x2048, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  bcast_S512_S1x1x512_2 : S512.BroadcastsInDim S1x1x512 (![2] : Fin 1 → Fin S1x1x512.rank)
  bcast_S1x1x512_S64x512x512_0_1_2 : S1x1x512.BroadcastsInDim S64x512x512 (![0, 1, 2] : Fin 3 → Fin S64x512x512.rank)
  reducesTo_S64x512x1_S64x1_d1 : S64x512x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x512x1_0_1_2 : S64x1x1.BroadcastsInDim S64x512x1 (![0, 1, 2] : Fin 3 → Fin S64x512x1.rank)
  bcast_S64x512x1_S64x512x2048_0_1_2 : S64x512x1.BroadcastsInDim S64x512x2048 (![0, 1, 2] : Fin 3 → Fin S64x512x2048.rank)
  reducesTo_S64x512x2048_S64x2048_d1 : S64x512x2048.ReducesTo [1] S64x2048
  dot_S64x1024_S1024x512_S64x512_1_0_0_1_n_n_wf : DotDims.WF S64x1024 S1024x512 S64x512 [1] [0] [0] [1] [] []
  dot_S64x512x2048_S512x2048_S64x512x512_2_1_01_0_n_n_wf : DotDims.WF S64x512x2048 S512x2048 S64x512x512 [2] [1] [0, 1] [0] [] []
  dot_S64x512x512_S1x512_S64x512x1_2_1_01_0_n_n_wf : DotDims.WF S64x512x512 S1x512 S64x512x1 [2] [1] [0, 1] [0] [] []

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x512x2048_S512x2048_S64x512x512_2_1_01_0_n_n : DotDims S64x512x2048 S512x2048 S64x512x512 where
  lhsContracting := [2]
  rhsContracting := [1]
  lhsNonContracting := [0, 1]
  rhsNonContracting := [0]
  lhsBatch := []
  rhsBatch := []
  wf := dot_S64x512x2048_S512x2048_S64x512x512_2_1_01_0_n_n_wf
def dot_S64x512x512_S1x512_S64x512x1_2_1_01_0_n_n : DotDims S64x512x512 S1x512 S64x512x1 where
  lhsContracting := [2]
  rhsContracting := [1]
  lhsNonContracting := [0, 1]
  rhsNonContracting := [0]
  lhsBatch := []
  rhsBatch := []
  wf := dot_S64x512x512_S1x512_S64x512x1_2_1_01_0_n_n_wf

class Facts : Prop extends Facts₀ where

variable [Facts]
-- ==== Proof.Kernel.Reg0.lean ====
/-
  Region 0 of @main (the energy kernel), at the buffer contents `V` the region is entered from.
  Every operand is a window the pipeline stages; the body loads each input block whole, computes one
  value from them and stores it whole into the output block. So at a grid point the output block is
  one pure function of the six input blocks, the inputs' staging buffers are left as fetched, and the
  region's invariant is only "the buffers no window stages, at anything".
-/
import proofs.«176767_j22514218566280_1_alg».proof.Proof.Gen.Kernel.Launch
import proofs.«176767_j22514218566280_1_alg».proof.Proof.Gen.Kernel.Skeleton
import proofs.«176767_j22514218566280_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over
    from the last point that fetched it (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or carried over
    from the last point that fetched it (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or carried over
    from the last point that fetched it (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or carried over
    from the last point that fetched it (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or carried over
    from the last point that fetched it (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or carried over
    from the last point that fetched it (its block index has not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one whole buffer -/

abbrev r0_0 : Rect S8x1024 := Rect.unit (s := S8x1024) ![0, 0] S8x1024.size inb_S8x1024_S8x1024_0_0
abbrev r0_1 : Rect S8x128x2048 := Rect.unit (s := S8x128x2048) ![0, 0, 0] S8x128x2048.size inb_S8x128x2048_S8x128x2048_0_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S512 := Rect.unit (s := S512) ![0] S512.size inb_S512_S512_0
abbrev r0_5 : Rect S1x512 := Rect.unit (s := S1x512) ![0, 0] S1x512.size inb_S1x512_S1x512_0_0
abbrev r0_6 : Rect S8x128x1 := Rect.unit (s := S8x128x1) ![0, 0, 0] S8x128x1.size inb_S8x128x1_S8x128x1_0_0_0

/-- The output block after the body, from the six input blocks: the one store's payload (the energies of the
    block's 8 × 128 (batch, time) pairs), written over the whole buffer. The payload takes the loads in the
    order the body makes them: hidden, W, feats, U, b, w. -/
def out0_6 (x0 : Vec F S8x1024 .f32) (x1 : Vec F S8x128x2048 .f32) (x2 : Vec F S512x1024 .f32) (x3 : Vec F S512x2048 .f32)
    (x4 : Vec F S512 .f32) (x5 : Vec F S1x512 .f32) : Vec F S8x128x1 .f32 :=
  View.canon [⟨r0_6, k0_pay1 (View.ld x0 r0_0) (View.ld x2 r0_2) (View.ld x1 r0_1) (View.ld x3 r0_3) (View.ld x4 r0_4) (View.ld x5 r0_5)⟩]

/-- The one store covers the output buffer. -/
theorem cover0_6 (p0 : Vec F S8x128x1 .f32) (y : S8x128x1.Idx) :
    ∃ pc ∈ ([⟨r0_6, p0⟩] : List (View.Piece (Elt F) S8x128x1 .f32)), y ∈ pc.1.set :=
  View.cover_of_tiled [⟨r0_6, p0⟩] S8x128x1.size (by rfl) y

set_option maxHeartbeats 1000000 in
/-- The body on whole staging memrefs, the inputs' at contents `x0 … x5` and the output's at anything, runs to
    the continuation holding the inputs' as they were and the output's at `out0_6` of them. -/
theorem sound_kernel0 (c : Dev nD) (E : Set ℕ) (i : grid0.Coords)
    (arg2 : Memref sig .tc .vmem S8x1024 .f32) (harg2 : arg2.IsWhole) (arg3 : Memref sig .tc .vmem S8x128x2048 .f32) (harg3 : arg3.IsWhole)
    (arg4 : Memref sig .tc .vmem S512x1024 .f32) (harg4 : arg4.IsWhole) (arg5 : Memref sig .tc .vmem S512x2048 .f32) (harg5 : arg5.IsWhole)
    (arg6 : Memref sig .tc .vmem S512 .f32) (harg6 : arg6.IsWhole) (arg7 : Memref sig .tc .vmem S1x512 .f32) (harg7 : arg7.IsWhole)
    (arg8 : Memref sig .tc .vmem S8x128x1 .f32) (harg8 : arg8.IsWhole)
    (x0 : Vec F S8x1024 .f32) (x1 : Vec F S8x128x2048 .f32) (x2 : Vec F S512x1024 .f32) (x3 : Vec F S512x2048 .f32)
    (x4 : Vec F S512 .f32) (x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__energy_kernel i arg2 harg2 arg3 harg3 arg4 harg4 arg5 harg5 arg6 harg6 arg7 harg7 arg8 harg8) K := by
  simp only [cc0__energy_kernel_eq_skeleton]; unfold cc0__energy_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The region's proof data -/

/-- The proof data of region 0 on core `c`: the arrays as the region finds them; after the body at point `t`
    each input's buffer at its block and the output's at `out0_6` of the input blocks; the invariant "the scoped
    buffers no window stages and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.Kernel.Reg1.lean ====
/-
  Region 1 of @main (the weighted-sum kernel), at the buffer contents `V` the region is entered from.
  The grid is 8 batch blocks × 4 time blocks, the time axis innermost. The kernel keeps a scratch
  accumulator across the four time blocks of a batch block: at the first (time coordinate 0) it stores
  zeros into the scratch, at every point it adds the block's weighted sum over its 128 time steps to the
  scratch, and at the last (time coordinate 3) it copies the scratch into the output block, which the
  pipeline writes back there and nowhere else. So what the scratch holds after a point is a function of
  the point's two input blocks and, unless the point resets it, of what the point before left: `acc1`.
-/
import proofs.«176767_j22514218566280_1_alg».proof.Proof.Gen.Kernel.Launch
import proofs.«176767_j22514218566280_1_alg».proof.Proof.Gen.Kernel.Skeleton
import proofs.«176767_j22514218566280_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first `scf.if` (reset the scratch): the time coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second `scf.if` (copy the scratch out): the time coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, exactly off the points ≡ 3 (mod 4). -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel
theorem liveAt1_2 : ∀ t : Fin cfg1.N, t.val % 4 = 3 → cfg1.idle 2 (grid1.coords t) = false := by decide +kernel

/-! ## The scratch, point by point -/

/-- The scratch accumulator as a memref: a whole scoped buffer of the kernel's own. -/
abbrev scM1 : Memref sig .tc .vmem S8x2048 .f32 := Memref.whole cc1_scratch0

/-- What the scratch holds after the body at position `n`: the accumulation step `k1_pay2` of the point's two input
    blocks over the zeros `k1_pay1` when the point resets the scratch (`n ≡ 0 (mod 4)`), otherwise over what
    position `n - 1` left. -/
def acc1 (c : Dev nD) : (n : ℕ) → n < cfg1.N → Vec F S8x2048 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩)
      (if (n + 1) % 4 = 0 then (k1_pay1 (F := F)) else acc1 V c n (Nat.lt_of_succ_lt hn)) := rfl
/-- At a point that resets: the step over zeros. -/
theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact (acc1_succ V c n hn).trans (by rw [if_pos h0])
/-- At any other point: the step over what the point before left. -/
theorem acc1_step (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (acc1_succ V c n hn).trans (by rw [if_neg h0]; rfl)

/-- The scoped buffers region 1 neither stages nor uses as scratch (region 0's staging buffers), each at anything. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class invariant with the scratch as a memref owned at some contents. -/
theorem PhiA1_eq (c : Dev nD) :
    (Pipeline.ΦA spec1 c : sProp 𝕄)
      = iprop((others1 (F := F) c ∗ (∃ d, owns (c : Thread nD τ) scM1 fullShare d)) ∗ (∃ r, prngReg c r)) := by
  unfold Pipeline.ΦA; rw [scopedRest1_eq]; unfold others1; simp only [scM1, owns_whole]
  refine BI.equiv_iff.mp ⟨?_, ?_⟩
  · show (_ : sProp 𝕄) ⊢ _
    iintro ⟨⟨H0, H1, H2, H3, H4, H5, H6, H7, H8, H9, HS⟩, Hg⟩
    iframe
  · show (_ : sProp 𝕄) ⊢ _
    iintro ⟨⟨⟨H0, H1, H2, H3, H4, H5, H6, H7, H8, H9⟩, HS⟩, Hg⟩
    iframe

/-- The region's invariant before position `n`: before the first point the class's (every scoped buffer the region
    does not stage at anything, the generator register at some state); afterwards the same with the scratch at what
    the point before left in it. -/
def Phi1 (c : Dev nD) : (n : ℕ) → n ≤ cfg1.N → sProp 𝕄
  | 0, _ => Pipeline.ΦA spec1 c
  | n + 1, hn => iprop((others1 (F := F) c ∗ owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((others1 (F := F) c ∗ owns (c : Thread nD τ) scM1 fullShare (acc1 V c n hn)) ∗ (∃ r, prngReg c r)) := rfl
theorem Phi1_pos (c : Dev nD) (n : ℕ) (h : n ≤ cfg1.N) (hz : n ≠ 0) :
    Phi1 V c n h = iprop((others1 (F := F) c ∗ owns (c : Thread nD τ) scM1 fullShare (acc1 V c (n - 1) (by omega))) ∗ (∃ r, prngReg c r)) := by
  cases n with
  | zero => exact absurd rfl hz
  | succ n => rfl

/-! ## The region's proof data -/

/-- The proof data of region 1 on core `c`: the arrays as the region finds them; after the body at point `t` each
    input's buffer at its block and the output's at the scratch's contents `acc1` (stored there at the points ≡ 3
    (mod 4); at the others the window is idle and this value is not consulted); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem Phi1_castSucc (c : Dev nD) (t : Fin cfg1.N) :
    (dat1 V c).Φ t.castSucc = Phi1 V c t.val (Nat.le_of_lt t.isLt) := by
  dsimp only [dat1]; simp only [Fin.coe_castSucc]

/-! ## The body on whole memrefs, case by case

The body's accesses are all whole buffers: a load reads the buffer's contents, a store leaves its payload, and a
load after a store reads that store's payload. So in each case what the scratch (and, where it is copied out, the
output buffer) ends holding is the accumulation step `k1_pay2` of the two input blocks over what the scratch
held when the step read it: the zeros `k1_pay1` just stored at a reset point, its entry contents otherwise. -/

/-- The zero offsets of the body's whole-buffer accesses, as functions. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- Time coordinate 0: the scratch, entered at anything, is zeroed and then holds the step over the zeros; the output
    buffer is not touched. -/
theorem sound_kernel1_A (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : cond1_0 i) (hc1 : ¬ cond1_1 i)
    (x0 : Vec F S8x128x2048 .f32) (x1 : Vec F S8x128x1 .f32) (xi : Vec F S8x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2]

set_option maxHeartbeats 1000000 in
/-- Time coordinates 1 and 2: the scratch, entered at `xs`, holds the step over `xs`; the output buffer is not
    touched. -/
theorem sound_kernel1_B (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : ¬ cond1_0 i) (hc1 : ¬ cond1_1 i)
    (x0 : Vec F S8x128x2048 .f32) (x1 : Vec F S8x128x1 .f32) (xi : Vec F S8x2048 .f32) (xs : Vec F S8x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 xs)) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]

set_option maxHeartbeats 1000000 in
/-- Time coordinate 3: the scratch, entered at `xs`, holds the step over `xs`, and the output buffer, entered at
    anything, a copy of it. -/
theorem sound_kernel1_C (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : ¬ cond1_0 i) (hc1 : cond1_1 i)
    (x0 : Vec F S8x128x2048 .f32) (x1 : Vec F S8x128x1 .f32) (xs : Vec F S8x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.Mem.head _, View.mem_set_unit_zero hz2 inb_S8x2048_S8x2048_0_0 y⟩),
      View.canon_cons_unit_zero (S := S8x2048) hz2]
    simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]

/-! ## The body obligation -/

/-- Each window's current staging memref at point `t`, as the pipeline passes it to the body. -/
abbrev ms1_0 (t : Fin cfg1.N) : Memref sig .tc .vmem S8x128x2048 .f32 := win1_0.stage (cfg1.slots t 0)
abbrev ms1_1 (t : Fin cfg1.N) : Memref sig .tc .vmem S8x128x1 .f32 := win1_1.stage (cfg1.slots t 1)
abbrev ms1_2 (t : Fin cfg1.N) : Memref sig .tc .vmem S8x2048 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the time coordinate says which case the point is in.
    At time coordinate 0 the scratch's entry contents do not matter (the class's invariant at the first point, what
    the point before left afterwards: either way forgotten); at the others it enters at what the point before left, and
    the step over that is what `acc1` says this point leaves. The output's buffer passes through untouched where the
    window is idle and takes the scratch's contents at time coordinate 3; the buffers of the other region and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬ t.val % 4 = 3 := by omega
    rw [Dat.leavesExact_idle (dat1 V c) 2 t (idleAt1_2 t h1) (noFlush1_2 t h1)]
    rw [acc1_reset V c t h0]
    by_cases hz : t.val = 0
    · rw [Phi1_castSucc V c t, Phi1_zero V c _ _ hz, PhiA1_eq]
      iintro ⟨⟨⟨Hr, HS⟩, Hg⟩, Ho, ⟨%d0, H0⟩, ⟨%d1, H1⟩, ⟨%d2, H2⟩⟩
      iapply (sound_kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2
    · rw [Phi1_castSucc V c t, Phi1_pos V c _ _ hz]
      iintro ⟨⟨⟨Hr, HS⟩, Hg⟩, Ho, ⟨%d0, H0⟩, ⟨%d1, H1⟩, ⟨%d2, H2⟩⟩
      iapply (sound_kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2
  · have hz : t.val ≠ 0 := fun hz => h0 (by rw [hz])
    rw [acc1_step V c t h0, Phi1_castSucc V c t, Phi1_pos V c _ _ hz]
    by_cases h1 : t.val % 4 = 3
    · rw [show (dat1 V c).leavesExact 2 t = owns (c : Thread nD τ) (ms1_2 t) fullShare ((dat1 V c).after 2 t) from by
        unfold Dat.leavesExact; rw [liveAt1_2 t h1], after1_2, acc1_step V c t h0]
      iintro ⟨⟨⟨Hr, HS⟩, Hg⟩, Ho, ⟨%d0, H0⟩, ⟨%d1, H1⟩, ⟨%d2, H2⟩⟩
      iapply (sound_kernel1_C c Set.univ (grid1.coords t) _ _ _ _ _ _ _ _ (fun h => h0 ((hcond1_0 t).mp h)) ((hcond1_1 t).mpr h1)
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨Hr, HS⟩, Hg⟩, Ho, ⟨%d0, H0⟩, ⟨%d1, H1⟩, ⟨%d2, H2⟩⟩
      iapply (sound_kernel1_B c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2

/-- The library's body obligation, at every point: by cases on the point's time coordinate (0: reset and
    accumulate; 1, 2: accumulate; 3: accumulate and copy out). -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's back: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 32 := N_1; omega
  rw [show (dat1 V c).Φ (Fin.last cfg1.N) = Phi1 V c (Fin.last cfg1.N).val (Nat.le_of_lt_succ (Fin.last cfg1.N).isLt) from rfl,
    Phi1_pos V c _ _ hN, PhiA1_eq]
  iintro ⟨⟨Ho, HS⟩, Hg⟩
  isplitr [Hg]
  · isplitl [Ho]; · iexact Ho
    iexists _; iexact HS
  · iexact Hg

end Cert.Kernel.R1

end
-- ==== Proof.Kernel.Run.lean ====
/-
  @main of the kernel program as three items — region 0, the host stretch (the softmax over time), region 1 —
  run from the launch to the return. What the regions leave in the two buffers they may change is named:
  `o1` (region 0's output array, the energies, folded from its write-backs) and `o3` (region 1's output array).
  The run ends with every unscoped buffer at the last valuation `Gen.V3`; the frame claim and the two results
  are read off it.
-/
import proofs.«176767_j22514218566280_1_alg».proof.Proof.Gen.Kernel.Regions
import proofs.«176767_j22514218566280_1_alg».proof.Proof.Kernel.Reg0
import proofs.«176767_j22514218566280_1_alg».proof.Proof.Kernel.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents region 0 is entered from: the launch memory. -/
abbrev Vin0 : (c : Dev nD) → (b : Ref sig .tc) → Buf (Elt F) ((c : Thread nD τ).loc b) := fun c b => Gen.V0 m c b

/-- What region 0 leaves in its output array `main_v0`: its write-backs folded over the grid. -/
def o1 (c : Dev nD) : Buf (Elt F) ((c : Thread nD τ).loc main_v0) := (R0.dat0 (Vin0 m) c).arrAt 6 cfg0.N

/-- The regions' unknowns with only region 0's set. -/
def outsA : Gen.Outs (F := F) := fun _ => Function.update (fun r c => m ((c : Thread nD τ).loc r)) main_v0 (o1 m)

/-- The buffer contents region 1 is entered from: the launch memory with `main_v0` at `o1`, then the host stretch. -/
abbrev Vin1 : (c : Dev nD) → (b : Ref sig .tc) → Buf (Elt F) ((c : Thread nD τ).loc b) := fun c b => Gen.V2 m (outsA m) c b

/-- What region 1 leaves in its output array `main_v14`. -/
def o3 (c : Dev nD) : Buf (Elt F) ((c : Thread nD τ).loc main_v14) := (R1.dat1 (Vin1 m) c).arrAt 2 cfg1.N

/-- The regions' unknowns: after item 0 `main_v0` at `o1`, after item 2 `main_v14` at `o3`. -/
def outs : Gen.Outs (F := F) := fun J =>
  if J = 3 then Function.update (fun r c => m ((c : Thread nD τ).loc r)) main_v14 (o3 m) else outsA m J

theorem outs_v0 (c : Dev nD) : outs m 1 main_v0 c = o1 m c := by
  unfold outs
  rw [if_neg (by decide)]
  unfold outsA
  rw [Function.update_self]
theorem outs_v14 (c : Dev nD) : outs m 3 main_v14 c = o3 m c := by
  unfold outs
  rw [if_pos rfl, Function.update_self]
/-- Region 1's entry contents do not depend on what is said of item 2. -/
theorem V2_outs (c : Dev nD) : Gen.V2 m (outs m) c = Gen.V2 m (outsA m) c := by
  show StableHlo.after hostOps1 (Function.update (Gen.V0 m c) main_v0 (outs m 1 main_v0 c))
    = StableHlo.after hostOps1 (Function.update (Gen.V0 m c) main_v0 (outsA m 1 main_v0 c))
  rw [show outs m 1 = outsA m 1 from if_neg (by decide)]

/-- Every region's proof data, each at its region's entry contents: a literal match on the region's number. -/
def pdats : (p : Fin 2) → (c : Dev nD) → Dat τ (Elt F) Unit ℕ (UR sig nD τ) ℕ (cfgs p) c
  | ⟨0, _⟩ => fun c => R0.dat0 (Vin0 m) c
  | ⟨1, _⟩ => fun c => R1.dat1 (Vin1 m) c

/-! ## What rides beside the buffers, and the launch's parameters -/

/-- No variant is registered. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev rest (c : Dev nD) : sProp 𝕄 :=
  iprop((∃ r, prngReg c r) ∗ ∃ W, owes (c : Thread nD τ) (0 : CellTallies nD τ sig Unit) W)
/-- The same rest between any two items. -/
abbrev E : Fin 3 → Dev nD → sProp 𝕄 := fun _ c => rest (F := F) c

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The contents at each region's exit -/

/-- At region 0's exit each of its arrays holds what the pipeline leaves: an input as entered, which is the launch
    contents and what `Gen.V1` has off `main_v0`; the output `main_v0` at `o1`. -/
theorem hF0 (c : Dev nD) : ∀ w : Fin cfg0.W,
    (R0.dat0 (Vin0 m) c).arrAt w cfg0.N = Gen.V1 m (outs m) c (Pipeline.arrRef spec0 w)
  | ⟨0, _⟩ => (((R0.dat0 (Vin0 m) c).arrAt_in 0 rfl _).trans (R0.A_eq0 (Vin0 m) c 0)).trans (Gen.V1_of m (outs m) c main_arg0 (by decide)).symm
  | ⟨1, _⟩ => (((R0.dat0 (Vin0 m) c).arrAt_in 1 rfl _).trans (R0.A_eq0 (Vin0 m) c 1)).trans (Gen.V1_of m (outs m) c main_arg1 (by decide)).symm
  | ⟨2, _⟩ => (((R0.dat0 (Vin0 m) c).arrAt_in 2 rfl _).trans (R0.A_eq0 (Vin0 m) c 2)).trans (Gen.V1_of m (outs m) c main_arg2 (by decide)).symm
  | ⟨3, _⟩ => (((R0.dat0 (Vin0 m) c).arrAt_in 3 rfl _).trans (R0.A_eq0 (Vin0 m) c 3)).trans (Gen.V1_of m (outs m) c main_arg3 (by decide)).symm
  | ⟨4, _⟩ => (((R0.dat0 (Vin0 m) c).arrAt_in 4 rfl _).trans (R0.A_eq0 (Vin0 m) c 4)).trans (Gen.V1_of m (outs m) c main_arg4 (by decide)).symm
  | ⟨5, _⟩ => (((R0.dat0 (Vin0 m) c).arrAt_in 5 rfl _).trans (R0.A_eq0 (Vin0 m) c 5)).trans (Gen.V1_of m (outs m) c main_arg5 (by decide)).symm
  | ⟨6, _⟩ => by
    show _ = Function.update (Gen.V0 m c) (Proc.devRef .tc main_v0) (outs m 1 main_v0 c) (Proc.devRef .tc main_v0)
    rw [Function.update_self, outs_v0]; rfl
/-- Off region 0's arrays `Gen.V1` is the launch contents: `main_v0` is one of the arrays. -/
theorem hrest0 (c : Dev nD) : ∀ b, b ∉ Finset.univ.image (Pipeline.arrRef spec0) → Gen.V1 m (outs m) c b = Vin0 m c b :=
  fun b hb => Gen.V1_of m (outs m) c b fun h =>
    hb (Finset.mem_image.mpr ⟨6, Finset.mem_univ _, (List.mem_singleton.mp h).symm⟩)

/-- At region 1's exit each of its arrays holds what the pipeline leaves: an input as entered, which is what
    `Gen.V3` has off `main_v14`; the output `main_v14` at `o3`. -/
theorem hF1 (c : Dev nD) : ∀ w : Fin cfg1.W,
    (R1.dat1 (Vin1 m) c).arrAt w cfg1.N = Gen.V3 m (outs m) c (Pipeline.arrRef spec1 w)
  | ⟨0, _⟩ => (((R1.dat1 (Vin1 m) c).arrAt_in 0 rfl _).trans (R1.A_eq1 (Vin1 m) c 0)).trans
      ((Gen.V3_of m (outs m) c main_arg1 (by decide)).trans (congrFun (V2_outs m c) (Proc.devRef .tc main_arg1))).symm
  | ⟨1, _⟩ => (((R1.dat1 (Vin1 m) c).arrAt_in 1 rfl _).trans (R1.A_eq1 (Vin1 m) c 1)).trans
      ((Gen.V3_of m (outs m) c main_v13 (by decide)).trans (congrFun (V2_outs m c) (Proc.devRef .tc main_v13))).symm
  | ⟨2, _⟩ => by
    show _ = Function.update (Gen.V2 m (outs m) c) (Proc.devRef .tc main_v14) (outs m 3 main_v14 c) (Proc.devRef .tc main_v14)
    rw [Function.update_self, outs_v14]; rfl
/-- Off region 1's arrays `Gen.V3` is region 1's entry contents: `main_v14` is one of the arrays. -/
theorem hrest1 (c : Dev nD) : ∀ b, b ∉ Finset.univ.image (Pipeline.arrRef spec1) → Gen.V3 m (outs m) c b = Vin1 m c b :=
  fun b hb => (Gen.V3_of m (outs m) c b fun h =>
    hb (Finset.mem_image.mpr ⟨2, Finset.mem_univ _, (List.mem_singleton.mp h).symm⟩)).trans
      (congrFun (V2_outs m c) (Proc.devRef .tc b))

/-! ## The regions as segments -/

set_option backward.isDefEq.respectTransparency.types false in
/-- REGION 0 over the thread state: entered from every unscoped buffer at the launch contents, left at `Gen.V1`.
    Its arrays split out of the unscoped buffers and put back at the exit contents; the generator register into
    the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ rest c)
  post c := iprop(StableHlo.held (c : Thread nD τ) (Pipeline.ucRefs τ sig) (Gen.V1 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => R0.A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Gen.V2` (which is the contents its proof
    data are stated at: `V2_outs`), left at `Gen.V3`. As region 0, but for the invariant: the class's invariant
    makes the region's own before the first point and the region's own gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ rest c)
  post c := iprop(StableHlo.held (c : Thread nD τ) (Pipeline.ucRefs τ sig) (Gen.V3 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Vin1 m c) fun w => R1.A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (Vin1 m) c)
    unfold Pipeline.ΦA
    iintro ⟨Hp, -, Hr⟩
    isplitl [Hr]; · iexact Hr
    iexact Hp
  hout c := by
    rw [Pipeline.ownSems0_none]
    refine BIBase.Entails.trans (R1.hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: from any memory with zero counters every weakly fair execution of @main terminates, nothing faulting,
    with every unscoped buffer of every core at the last valuation. -/
theorem run : θ_run defs (onTc (τ := τ) (main (F := F))) ⟨m, fun _ => 0, ρ⟩ (fun r => ∀ c : Dev nD,
    ∀ b ∈ Pipeline.ucRefs τ sig, r.2.mem (((c : Thread nD τ)).1, b) = Gen.V3 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V3 m (outs m) c))
    (hch := fun c => ⟨.rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨Hh, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun _ h => h)

/-- The frame claim's post, at any `F`: each argument's buffer read off the last valuation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V3_main_arg0 m (outs m) c),
      (h c _ (mem_uc main_arg1 (by decide))).trans (Gen.V3_main_arg1 m (outs m) c),
      (h c _ (mem_uc main_arg2 (by decide))).trans (Gen.V3_main_arg2 m (outs m) c),
      (h c _ (mem_uc main_arg3 (by decide))).trans (Gen.V3_main_arg3 m (outs m) c),
      (h c _ (mem_uc main_arg4 (by decide))).trans (Gen.V3_main_arg4 m (outs m) c),
      (h c _ (mem_uc main_arg5 (by decide))).trans (Gen.V3_main_arg5 m (outs m) c)⟩) (run m ρ)

/-- The last valuation at region 1's output array is `o3`. -/
theorem V3_v14 (c : Dev nD) : Gen.V3 m (outs m) c main_v14 = o3 m c := by
  show Function.update (Gen.V2 m (outs m) c) (Proc.devRef .tc main_v14) (outs m 3 main_v14 c) (Proc.devRef .tc main_v14) = _
  rw [Function.update_self, outs_v14]
/-- The last valuation at `main_v13` is region 1's entry contents there: region 1 does not change it. -/
theorem V3_v13 (c : Dev nD) : Gen.V3 m (outs m) c main_v13 = Vin1 m c main_v13 :=
  (Gen.V3_of m (outs m) c main_v13 (by decide)).trans (congrFun (V2_outs m c) (Proc.devRef .tc main_v13))

/-- The two results and the arguments, read off the last valuation: `main_v14` at `o3`, `main_v13` at what the host
    stretch leaves there from `o1`. -/
theorem run_results : θ_run defs (onTc (τ := τ) (main (F := F))) ⟨m, fun _ => 0, ρ⟩ (fun r => ∀ c : Dev nD,
      r.2.mem ((c.tc : Thread nD τ).loc main_v14) = o3 m c
      ∧ r.2.mem ((c.tc : Thread nD τ).loc main_v13) = Vin1 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v14 (by decide))).trans (V3_v14 m c),
      (h c _ (mem_uc main_v13 (by decide))).trans (V3_v13 m c),
      (h c _ (mem_uc main_arg0 (by decide))).trans (Gen.V3_main_arg0 m (outs m) c),
      (h c _ (mem_uc main_arg1 (by decide))).trans (Gen.V3_main_arg1 m (outs m) c),
      (h c _ (mem_uc main_arg2 (by decide))).trans (Gen.V3_main_arg2 m (outs m) c),
      (h c _ (mem_uc main_arg3 (by decide))).trans (Gen.V3_main_arg3 m (outs m) c),
      (h c _ (mem_uc main_arg4 (by decide))).trans (Gen.V3_main_arg4 m (outs m) c),
      (h c _ (mem_uc main_arg5 (by decide))).trans (Gen.V3_main_arg5 m (outs m) c)⟩) (run m ρ)

end Cert.Kernel.Run

end
-- ==== Proof.KernelIdeal.Reg0.lean ====
/-
  Region 0 of @main (the energy kernel), at the buffer contents `V` the region is entered from.
  Every operand is a window the pipeline stages; the body loads each input block whole, computes one
  value from them and stores it whole into the output block. So at a grid point the output block is
  one pure function of the six input blocks, the inputs' staging buffers are left as fetched, and the
  region's invariant is only "the buffers no window stages, at anything".
-/
import proofs.«176767_j22514218566280_1_alg».proof.Proof.Gen.KernelIdeal.Launch
import proofs.«176767_j22514218566280_1_alg».proof.Proof.Gen.KernelIdeal.Skeleton
import proofs.«176767_j22514218566280_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or carried over
    from the last point that fetched it (its block index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or carried over
    from the last point that fetched it (its block index has not moved since). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or carried over
    from the last point that fetched it (its block index has not moved since). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or carried over
    from the last point that fetched it (its block index has not moved since). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or carried over
    from the last point that fetched it (its block index has not moved since). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or carried over
    from the last point that fetched it (its block index has not moved since). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each one whole buffer -/

abbrev r0_0 : Rect S8x1024 := Rect.unit (s := S8x1024) ![0, 0] S8x1024.size inb_S8x1024_S8x1024_0_0
abbrev r0_1 : Rect S8x128x2048 := Rect.unit (s := S8x128x2048) ![0, 0, 0] S8x128x2048.size inb_S8x128x2048_S8x128x2048_0_0_0
abbrev r0_2 : Rect S512x1024 := Rect.unit (s := S512x1024) ![0, 0] S512x1024.size inb_S512x1024_S512x1024_0_0
abbrev r0_3 : Rect S512x2048 := Rect.unit (s := S512x2048) ![0, 0] S512x2048.size inb_S512x2048_S512x2048_0_0
abbrev r0_4 : Rect S512 := Rect.unit (s := S512) ![0] S512.size inb_S512_S512_0
abbrev r0_5 : Rect S1x512 := Rect.unit (s := S1x512) ![0, 0] S1x512.size inb_S1x512_S1x512_0_0
abbrev r0_6 : Rect S8x128x1 := Rect.unit (s := S8x128x1) ![0, 0, 0] S8x128x1.size inb_S8x128x1_S8x128x1_0_0_0

/-- The output block after the body, from the six input blocks: the one store's payload (the energies of the
    block's 8 × 128 (batch, time) pairs), written over the whole buffer. The payload takes the loads in the
    order the body makes them: hidden, W, feats, U, b, w. -/
def out0_6 (x0 : Vec F S8x1024 .f32) (x1 : Vec F S8x128x2048 .f32) (x2 : Vec F S512x1024 .f32) (x3 : Vec F S512x2048 .f32)
    (x4 : Vec F S512 .f32) (x5 : Vec F S1x512 .f32) : Vec F S8x128x1 .f32 :=
  View.canon [⟨r0_6, k0_pay1 (View.ld x0 r0_0) (View.ld x2 r0_2) (View.ld x1 r0_1) (View.ld x3 r0_3) (View.ld x4 r0_4) (View.ld x5 r0_5)⟩]

/-- The one store covers the output buffer. -/
theorem cover0_6 (p0 : Vec F S8x128x1 .f32) (y : S8x128x1.Idx) :
    ∃ pc ∈ ([⟨r0_6, p0⟩] : List (View.Piece (Elt F) S8x128x1 .f32)), y ∈ pc.1.set :=
  View.cover_of_tiled [⟨r0_6, p0⟩] S8x128x1.size (by rfl) y

set_option maxHeartbeats 1000000 in
/-- The body on whole staging memrefs, the inputs' at contents `x0 … x5` and the output's at anything, runs to
    the continuation holding the inputs' as they were and the output's at `out0_6` of them. -/
theorem sound_kernel0 (c : Dev nD) (E : Set ℕ) (i : grid0.Coords)
    (arg2 : Memref sig .tc .vmem S8x1024 .f32) (harg2 : arg2.IsWhole) (arg3 : Memref sig .tc .vmem S8x128x2048 .f32) (harg3 : arg3.IsWhole)
    (arg4 : Memref sig .tc .vmem S512x1024 .f32) (harg4 : arg4.IsWhole) (arg5 : Memref sig .tc .vmem S512x2048 .f32) (harg5 : arg5.IsWhole)
    (arg6 : Memref sig .tc .vmem S512 .f32) (harg6 : arg6.IsWhole) (arg7 : Memref sig .tc .vmem S1x512 .f32) (harg7 : arg7.IsWhole)
    (arg8 : Memref sig .tc .vmem S8x128x1 .f32) (harg8 : arg8.IsWhole)
    (x0 : Vec F S8x1024 .f32) (x1 : Vec F S8x128x2048 .f32) (x2 : Vec F S512x1024 .f32) (x3 : Vec F S512x2048 .f32)
    (x4 : Vec F S512 .f32) (x5 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 x0 x1 x2 x3 x4 x5)) -∗ K ⟨⟩))
      ⊢ wp frame (wpE (defs₀ (F := F)) Variants.none c none) E (cc0__energy_kernel i arg2 harg2 arg3 harg3 arg4 harg4 arg5 harg5 arg6 harg6 arg7 harg7 arg8 harg8) K := by
  simp only [cc0__energy_kernel_eq_skeleton]; unfold cc0__energy_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The region's proof data -/

/-- The proof data of region 0 on core `c`: the arrays as the region finds them; after the body at point `t`
    each input's buffer at its block and the output's at `out0_6` of the input blocks; the invariant "the scoped
    buffers no window stages and the generator register, untouched"; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KernelIdeal.Reg1.lean ====
/-
  Region 1 of @main (the weighted-sum kernel), at the buffer contents `V` the region is entered from.
  The grid is 8 batch blocks × 4 time blocks, the time axis innermost. The kernel keeps a scratch
  accumulator across the four time blocks of a batch block: at the first (time coordinate 0) it stores
  zeros into the scratch, at every point it adds the block's weighted sum over its 128 time steps to the
  scratch, and at the last (time coordinate 3) it copies the scratch into the output block, which the
  pipeline writes back there and nowhere else. So what the scratch holds after a point is a function of
  the point's two input blocks and, unless the point resets it, of what the point before left: `acc1`.
-/
import proofs.«176767_j22514218566280_1_alg».proof.Proof.Gen.KernelIdeal.Launch
import proofs.«176767_j22514218566280_1_alg».proof.Proof.Gen.KernelIdeal.Skeleton
import proofs.«176767_j22514218566280_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point (it is fetched at every point). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, decided over the grid -/

/-- The first `scf.if` (reset the scratch): the time coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second `scf.if` (copy the scratch out): the time coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle; the output window is idle, and not written back, exactly off the points ≡ 3 (mod 4). -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬ t.val % 4 = 3 → cfg1.idle 2 (grid1.coords t) = true := by decide +kernel
theorem noFlush1_2 : ∀ t : Fin cfg1.N, ¬ t.val % 4 = 3 → (cfg1.win 2).flush t = false := by decide +kernel
theorem liveAt1_2 : ∀ t : Fin cfg1.N, t.val % 4 = 3 → cfg1.idle 2 (grid1.coords t) = false := by decide +kernel

/-! ## The scratch, point by point -/

/-- The scratch accumulator as a memref: a whole scoped buffer of the kernel's own. -/
abbrev scM1 : Memref sig .tc .vmem S8x2048 .f32 := Memref.whole cc1_scratch0

/-- What the scratch holds after the body at position `n`: the accumulation step `k1_pay2` of the point's two input
    blocks over the zeros `k1_pay1` when the point resets the scratch (`n ≡ 0 (mod 4)`), otherwise over what
    position `n - 1` left. -/
def acc1 (c : Dev nD) : (n : ℕ) → n < cfg1.N → Vec F S8x2048 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩)
      (if (n + 1) % 4 = 0 then (k1_pay1 (F := F)) else acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩)
      (if (n + 1) % 4 = 0 then (k1_pay1 (F := F)) else acc1 V c n (Nat.lt_of_succ_lt hn)) := rfl
/-- At a point that resets: the step over zeros. -/
theorem acc1_reset (c : Dev nD) (t : Fin cfg1.N) (h0 : t.val % 4 = 0) :
    acc1 V c t.val t.isLt = k1_pay2 (iblk1 V c 0 t) (iblk1 V c 1 t) (k1_pay1 (F := F)) := by
  obtain ⟨n, hn⟩ := t
  cases n with
  | zero => rfl
  | succ n => exact (acc1_succ V c n hn).trans (by rw [if_pos h0])
/-- At any other point: the step over what the point before left. -/
theorem acc1_step (c : Dev nD) (t : Fin cfg1.N) (h0 : ¬ t.val % 4 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact (acc1_succ V c n hn).trans (by rw [if_neg h0]; rfl)

/-- The scoped buffers region 1 neither stages nor uses as scratch (region 0's staging buffers), each at anything. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f))

/-- The class invariant with the scratch as a memref owned at some contents. -/
theorem PhiA1_eq (c : Dev nD) :
    (Pipeline.ΦA spec1 c : sProp 𝕄)
      = iprop((others1 (F := F) c ∗ (∃ d, owns (c : Thread nD τ) scM1 fullShare d)) ∗ (∃ r, prngReg c r)) := by
  unfold Pipeline.ΦA; rw [scopedRest1_eq]; unfold others1; simp only [scM1, owns_whole]
  refine BI.equiv_iff.mp ⟨?_, ?_⟩
  · show (_ : sProp 𝕄) ⊢ _
    iintro ⟨⟨H0, H1, H2, H3, H4, H5, H6, H7, H8, H9, HS⟩, Hg⟩
    iframe
  · show (_ : sProp 𝕄) ⊢ _
    iintro ⟨⟨⟨H0, H1, H2, H3, H4, H5, H6, H7, H8, H9⟩, HS⟩, Hg⟩
    iframe

/-- The region's invariant before position `n`: before the first point the class's (every scoped buffer the region
    does not stage at anything, the generator register at some state); afterwards the same with the scratch at what
    the point before left in it. -/
def Phi1 (c : Dev nD) : (n : ℕ) → n ≤ cfg1.N → sProp 𝕄
  | 0, _ => Pipeline.ΦA spec1 c
  | n + 1, hn => iprop((others1 (F := F) c ∗ owns (c : Thread nD τ) scM1 fullShare (acc1 V c n hn)) ∗ (∃ r, prngReg c r))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop((others1 (F := F) c ∗ owns (c : Thread nD τ) scM1 fullShare (acc1 V c n hn)) ∗ (∃ r, prngReg c r)) := rfl
theorem Phi1_pos (c : Dev nD) (n : ℕ) (h : n ≤ cfg1.N) (hz : n ≠ 0) :
    Phi1 V c n h = iprop((others1 (F := F) c ∗ owns (c : Thread nD τ) scM1 fullShare (acc1 V c (n - 1) (by omega))) ∗ (∃ r, prngReg c r)) := by
  cases n with
  | zero => exact absurd rfl hz
  | succ n => rfl

/-! ## The region's proof data -/

/-- The proof data of region 1 on core `c`: the arrays as the region finds them; after the body at point `t` each
    input's buffer at its block and the output's at the scratch's contents `acc1` (stored there at the points ≡ 3
    (mod 4); at the others the window is idle and this value is not consulted); the invariant `Phi1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem Phi1_castSucc (c : Dev nD) (t : Fin cfg1.N) :
    (dat1 V c).Φ t.castSucc = Phi1 V c t.val (Nat.le_of_lt t.isLt) := by
  dsimp only [dat1]; simp only [Fin.coe_castSucc]

/-! ## The body on whole memrefs, case by case

The body's accesses are all whole buffers: a load reads the buffer's contents, a store leaves its payload, and a
load after a store reads that store's payload. So in each case what the scratch (and, where it is copied out, the
output buffer) ends holding is the accumulation step `k1_pay2` of the two input blocks over what the scratch
held when the step read it: the zeros `k1_pay1` just stored at a reset point, its entry contents otherwise. -/

/-- The zero offsets of the body's whole-buffer accesses, as functions. -/
theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- Time coordinate 0: the scratch, entered at anything, is zeroed and then holds the step over the zeros; the output
    buffer is not touched. -/
theorem sound_kernel1_A (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : cond1_0 i) (hc1 : ¬ cond1_1 i)
    (x0 : Vec F S8x128x2048 .f32) (x1 : Vec F S8x128x1 .f32) (xi : Vec F S8x2048 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 (k1_pay1 (F := F)))) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2]

set_option maxHeartbeats 1000000 in
/-- Time coordinates 1 and 2: the scratch, entered at `xs`, holds the step over `xs`; the output buffer is not
    touched. -/
theorem sound_kernel1_B (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : ¬ cond1_0 i) (hc1 : ¬ cond1_1 i)
    (x0 : Vec F S8x128x2048 .f32) (x1 : Vec F S8x128x1 .f32) (xi : Vec F S8x2048 .f32) (xs : Vec F S8x2048 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k1_pay2 x0 x1 xs)) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]

set_option maxHeartbeats 1000000 in
/-- Time coordinate 3: the scratch, entered at `xs`, holds the step over `xs`, and the output buffer, entered at
    anything, a copy of it. -/
theorem sound_kernel1_C (c : Dev nD) (E : Set ℕ) (i : grid1.Coords)
    (arg2 : Memref sig .tc .vmem S8x128x2048 .f32) (harg2 : arg2.IsWhole) (arg3 : Memref sig .tc .vmem S8x128x1 .f32) (harg3 : arg3.IsWhole)
    (arg4 : Memref sig .tc .vmem S8x2048 .f32) (harg4 : arg4.IsWhole) (arg5 : Memref sig .tc .vmem S8x2048 .f32) (harg5 : arg5.IsWhole)
    (hc0 : ¬ cond1_0 i) (hc1 : cond1_1 i)
    (x0 : Vec F S8x128x2048 .f32) (x1 : Vec F S8x128x1 .f32) (xs : Vec F S8x2048 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs)
            ∗ owns (c : Thread nD τ) arg5 fullShare (k1_pay2 x0 x1 xs)) -∗ K ⟨⟩))
      ⊢ wp frame (wpE (defs₀ (F := F)) Variants.none c none) E (cc1__weighted_sum_kernel i arg2 harg2 arg3 harg3 arg4 harg4 arg5 harg5) K := by
  simp only [cc1__weighted_sum_kernel_eq_skeleton]; unfold cc1__weighted_sum_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [View.read_writes_eq_canon _ _ _ (fun y => ⟨_, List.Mem.head _, View.mem_set_unit_zero hz2 inb_S8x2048_S8x2048_0_0 y⟩),
      View.canon_cons_unit_zero (S := S8x2048) hz2]
    simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]
  iexists _; isplitr
  swap; · iexact HS
  ipureintro
  sl_unfold_words
  rw [View.read_writes_eq_canon _ _ _ (fun y => ⟨_, List.Mem.head _, View.mem_set_unit_zero hz2 inb_S8x2048_S8x2048_0_0 y⟩),
    View.canon_cons_unit_zero (S := S8x2048) hz2]
  simp only [View.readAt_eq_ld, hf0, hf1, View.ld_unit_zero (S := S8x128x2048) hz3, View.ld_unit_zero (S := S8x128x1) hz3, View.ld_unit_zero (S := S8x2048) hz2, View.readCov_unit_zero (S := S8x2048) _ hz2, hfs]

/-! ## The body obligation -/

/-- Each window's current staging memref at point `t`, as the pipeline passes it to the body. -/
abbrev ms1_0 (t : Fin cfg1.N) : Memref sig .tc .vmem S8x128x2048 .f32 := win1_0.stage (cfg1.slots t 0)
abbrev ms1_1 (t : Fin cfg1.N) : Memref sig .tc .vmem S8x128x1 .f32 := win1_1.stage (cfg1.slots t 1)
abbrev ms1_2 (t : Fin cfg1.N) : Memref sig .tc .vmem S8x2048 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the time coordinate says which case the point is in.
    At time coordinate 0 the scratch's entry contents do not matter (the class's invariant at the first point, what
    the point before left afterwards: either way forgotten); at the others it enters at what the point before left, and
    the step over that is what `acc1` says this point leaves. The output's buffer passes through untouched where the
    window is idle and takes the scratch's contents at time coordinate 3; the buffers of the other region and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬ t.val % 4 = 3 := by omega
    rw [Dat.leavesExact_idle (dat1 V c) 2 t (idleAt1_2 t h1) (noFlush1_2 t h1)]
    rw [acc1_reset V c t h0]
    by_cases hz : t.val = 0
    · rw [Phi1_castSucc V c t, Phi1_zero V c _ _ hz, PhiA1_eq]
      iintro ⟨⟨⟨Hr, HS⟩, Hg⟩, Ho, ⟨%d0, H0⟩, ⟨%d1, H1⟩, ⟨%d2, H2⟩⟩
      iapply (sound_kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2
    · rw [Phi1_castSucc V c t, Phi1_pos V c _ _ hz]
      iintro ⟨⟨⟨Hr, HS⟩, Hg⟩, Ho, ⟨%d0, H0⟩, ⟨%d1, H1⟩, ⟨%d2, H2⟩⟩
      iapply (sound_kernel1_A c Set.univ (grid1.coords t) _ _ _ _ _ _ _ _ ((hcond1_0 t).mpr h0) (fun h => h1 ((hcond1_1 t).mp h))
        (iblk1 V c 0 t) (iblk1 V c 1 t) ((dat1 V c).before 2 t d2) _)
      isplitl [H0]; · iexact H0
      isplitl [H1]; · iexact H1
      isplitl [H2]; · iexact H2
      isplitl [HS]; · iexists _; iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2
  · have hz : t.val ≠ 0 := fun hz => h0 (by rw [hz])
    rw [acc1_step V c t h0, Phi1_castSucc V c t, Phi1_pos V c _ _ hz]
    by_cases h1 : t.val % 4 = 3
    · rw [show (dat1 V c).leavesExact 2 t = owns (c : Thread nD τ) (ms1_2 t) fullShare ((dat1 V c).after 2 t) from by
        unfold Dat.leavesExact; rw [liveAt1_2 t h1], after1_2, acc1_step V c t h0]
      iintro ⟨⟨⟨Hr, HS⟩, Hg⟩, Ho, ⟨%d0, H0⟩, ⟨%d1, H1⟩, ⟨%d2, H2⟩⟩
      iapply (sound_kernel1_C c Set.univ (grid1.coords t) _ _ _ _ _ _ _ _ (fun h => h0 ((hcond1_0 t).mp h)) ((hcond1_1 t).mpr h1)
        (iblk1 V c 0 t) (iblk1 V c 1 t) (acc1 V c (t.val - 1) (Nat.lt_of_le_of_lt (Nat.sub_le _ _) t.isLt)) _)
      isplitl [H0]; · iexact H0
      isplitl [H1]; · iexact H1
      isplitl [H2]; · iexists _; iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      iintro ⟨⟨⟨Hr, HS⟩, Hg⟩, Ho, ⟨%d0, H0⟩, ⟨%d1, H1⟩, ⟨%d2, H2⟩⟩
      iapply (sound_kernel1_B c Set.univ (grid1.coords t) _ _ _ _ _ _ _ _ (fun h => h0 ((hcond1_0 t).mp h)) (fun h => h1 ((hcond1_1 t).mp h))
        (iblk1 V c 0 t) (iblk1 V c 1 t) ((dat1 V c).before 2 t d2) (acc1 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [Hr HS Hg]
      · isplitr [Hg]
        · isplitl [Hr]; · iexact Hr
          iexact HS
        · iexact Hg
      isplitl [Ho]; · iexact Ho
      isplitl [H0]; · iexact H0
      isplitl [H1]; · iexact H1
      iexists _; iexact H2

/-- The library's body obligation, at every point: by cases on the point's time coordinate (0: reset and
    accumulate; 1, 2: accumulate; 3: accumulate and copy out). -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's back: the scratch's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 32 := N_1; omega
  rw [show (dat1 V c).Φ (Fin.last cfg1.N) = Phi1 V c (Fin.last cfg1.N).val (Nat.le_of_lt_succ (Fin.last cfg1.N).isLt) from rfl,
    Phi1_pos V c _ _ hN, PhiA1_eq]
  iintro ⟨⟨Ho, HS⟩, Hg⟩
  isplitr [Hg]
  · isplitl [Ho]; · iexact Ho
    iexists _; iexact HS
  · iexact Hg

end Cert.KernelIdeal.R1

end
-- ==== Proof.KernelIdeal.Run.lean ====
/-
  @main of the kernel program as three items — region 0, the host stretch (the softmax over time), region 1 —
  run from the launch to the return. What the regions leave in the two buffers they may change is named:
  `o1` (region 0's output array, the energies, folded from its write-backs) and `o3` (region 1's output array).
  The run ends with every unscoped buffer at the last valuation `Gen.V3`; the frame claim and the two results
  are read off it.
-/
import proofs.«176767_j22514218566280_1_alg».proof.Proof.Gen.KernelIdeal.Regions
import proofs.«176767_j22514218566280_1_alg».proof.Proof.KernelIdeal.Reg0
import proofs.«176767_j22514218566280_1_alg».proof.Proof.KernelIdeal.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents region 0 is entered from: the launch memory. -/
abbrev Vin0 : (c : Dev nD) → (b : Ref sig .tc) → Buf (Elt F) ((c : Thread nD τ).loc b) := fun c b => Gen.V0 m c b

/-- What region 0 leaves in its output array `main_v0`: its write-backs folded over the grid. -/
def o1 (c : Dev nD) : Buf (Elt F) ((c : Thread nD τ).loc main_v0) := (R0.dat0 (Vin0 m) c).arrAt 6 cfg0.N

/-- The regions' unknowns with only region 0's set. -/
def outsA : Gen.Outs (F := F) := fun _ => Function.update (fun r c => m ((c : Thread nD τ).loc r)) main_v0 (o1 m)

/-- The buffer contents region 1 is entered from: the launch memory with `main_v0` at `o1`, then the host stretch. -/
abbrev Vin1 : (c : Dev nD) → (b : Ref sig .tc) → Buf (Elt F) ((c : Thread nD τ).loc b) := fun c b => Gen.V2 m (outsA m) c b

/-- What region 1 leaves in its output array `main_v14`. -/
def o3 (c : Dev nD) : Buf (Elt F) ((c : Thread nD τ).loc main_v14) := (R1.dat1 (Vin1 m) c).arrAt 2 cfg1.N

/-- The regions' unknowns: after item 0 `main_v0` at `o1`, after item 2 `main_v14` at `o3`. -/
def outs : Gen.Outs (F := F) := fun J =>
  if J = 3 then Function.update (fun r c => m ((c : Thread nD τ).loc r)) main_v14 (o3 m) else outsA m J

theorem outs_v0 (c : Dev nD) : outs m 1 main_v0 c = o1 m c := by
  unfold outs
  rw [if_neg (by decide)]
  unfold outsA
  rw [Function.update_self]
theorem outs_v14 (c : Dev nD) : outs m 3 main_v14 c = o3 m c := by
  unfold outs
  rw [if_pos rfl, Function.update_self]
/-- Region 1's entry contents do not depend on what is said of item 2. -/
theorem V2_outs (c : Dev nD) : Gen.V2 m (outs m) c = Gen.V2 m (outsA m) c := by
  show StableHlo.after hostOps1 (Function.update (Gen.V0 m c) main_v0 (outs m 1 main_v0 c))
    = StableHlo.after hostOps1 (Function.update (Gen.V0 m c) main_v0 (outsA m 1 main_v0 c))
  rw [show outs m 1 = outsA m 1 from if_neg (by decide)]

/-- Every region's proof data, each at its region's entry contents: a literal match on the region's number. -/
def pdats : (p : Fin 2) → (c : Dev nD) → Dat τ (Elt F) Unit ℕ (UR sig nD τ) ℕ (cfgs p) c
  | ⟨0, _⟩ => fun c => R0.dat0 (Vin0 m) c
  | ⟨1, _⟩ => fun c => R1.dat1 (Vin1 m) c

/-! ## What rides beside the buffers, and the launch's parameters -/

/-- No variant is registered. -/
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev rest (c : Dev nD) : sProp 𝕄 :=
  iprop((∃ r, prngReg c r) ∗ ∃ W, owes (c : Thread nD τ) (0 : CellTallies nD τ sig Unit) W)
/-- The same rest between any two items. -/
abbrev E : Fin 3 → Dev nD → sProp 𝕄 := fun _ c => rest (F := F) c

/-- An unscoped TensorCore reference is among those the thread state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## The contents at each region's exit -/

/-- At region 0's exit each of its arrays holds what the pipeline leaves: an input as entered, which is the launch
    contents and what `Gen.V1` has off `main_v0`; the output `main_v0` at `o1`. -/
theorem hF0 (c : Dev nD) : ∀ w : Fin cfg0.W,
    (R0.dat0 (Vin0 m) c).arrAt w cfg0.N = Gen.V1 m (outs m) c (Pipeline.arrRef spec0 w)
  | ⟨0, _⟩ => (((R0.dat0 (Vin0 m) c).arrAt_in 0 rfl _).trans (R0.A_eq0 (Vin0 m) c 0)).trans (Gen.V1_of m (outs m) c main_arg0 (by decide)).symm
  | ⟨1, _⟩ => (((R0.dat0 (Vin0 m) c).arrAt_in 1 rfl _).trans (R0.A_eq0 (Vin0 m) c 1)).trans (Gen.V1_of m (outs m) c main_arg1 (by decide)).symm
  | ⟨2, _⟩ => (((R0.dat0 (Vin0 m) c).arrAt_in 2 rfl _).trans (R0.A_eq0 (Vin0 m) c 2)).trans (Gen.V1_of m (outs m) c main_arg2 (by decide)).symm
  | ⟨3, _⟩ => (((R0.dat0 (Vin0 m) c).arrAt_in 3 rfl _).trans (R0.A_eq0 (Vin0 m) c 3)).trans (Gen.V1_of m (outs m) c main_arg3 (by decide)).symm
  | ⟨4, _⟩ => (((R0.dat0 (Vin0 m) c).arrAt_in 4 rfl _).trans (R0.A_eq0 (Vin0 m) c 4)).trans (Gen.V1_of m (outs m) c main_arg4 (by decide)).symm
  | ⟨5, _⟩ => (((R0.dat0 (Vin0 m) c).arrAt_in 5 rfl _).trans (R0.A_eq0 (Vin0 m) c 5)).trans (Gen.V1_of m (outs m) c main_arg5 (by decide)).symm
  | ⟨6, _⟩ => by
    show _ = Function.update (Gen.V0 m c) (Proc.devRef .tc main_v0) (outs m 1 main_v0 c) (Proc.devRef .tc main_v0)
    rw [Function.update_self, outs_v0]; rfl
/-- Off region 0's arrays `Gen.V1` is the launch contents: `main_v0` is one of the arrays. -/
theorem hrest0 (c : Dev nD) : ∀ b, b ∉ Finset.univ.image (Pipeline.arrRef spec0) → Gen.V1 m (outs m) c b = Vin0 m c b :=
  fun b hb => Gen.V1_of m (outs m) c b fun h =>
    hb (Finset.mem_image.mpr ⟨6, Finset.mem_univ _, (List.mem_singleton.mp h).symm⟩)

/-- At region 1's exit each of its arrays holds what the pipeline leaves: an input as entered, which is what
    `Gen.V3` has off `main_v14`; the output `main_v14` at `o3`. -/
theorem hF1 (c : Dev nD) : ∀ w : Fin cfg1.W,
    (R1.dat1 (Vin1 m) c).arrAt w cfg1.N = Gen.V3 m (outs m) c (Pipeline.arrRef spec1 w)
  | ⟨0, _⟩ => (((R1.dat1 (Vin1 m) c).arrAt_in 0 rfl _).trans (R1.A_eq1 (Vin1 m) c 0)).trans
      ((Gen.V3_of m (outs m) c main_arg1 (by decide)).trans (congrFun (V2_outs m c) (Proc.devRef .tc main_arg1))).symm
  | ⟨1, _⟩ => (((R1.dat1 (Vin1 m) c).arrAt_in 1 rfl _).trans (R1.A_eq1 (Vin1 m) c 1)).trans
      ((Gen.V3_of m (outs m) c main_v13 (by decide)).trans (congrFun (V2_outs m c) (Proc.devRef .tc main_v13))).symm
  | ⟨2, _⟩ => by
    show _ = Function.update (Gen.V2 m (outs m) c) (Proc.devRef .tc main_v14) (outs m 3 main_v14 c) (Proc.devRef .tc main_v14)
    rw [Function.update_self, outs_v14]; rfl
/-- Off region 1's arrays `Gen.V3` is region 1's entry contents: `main_v14` is one of the arrays. -/
theorem hrest1 (c : Dev nD) : ∀ b, b ∉ Finset.univ.image (Pipeline.arrRef spec1) → Gen.V3 m (outs m) c b = Vin1 m c b :=
  fun b hb => (Gen.V3_of m (outs m) c b fun h =>
    hb (Finset.mem_image.mpr ⟨2, Finset.mem_univ _, (List.mem_singleton.mp h).symm⟩)).trans
      (congrFun (V2_outs m c) (Proc.devRef .tc b))

/-! ## The regions as segments -/

set_option backward.isDefEq.respectTransparency.types false in
/-- REGION 0 over the thread state: entered from every unscoped buffer at the launch contents, left at `Gen.V1`.
    Its arrays split out of the unscoped buffers and put back at the exit contents; the generator register into
    the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (Vin0 m) c).loose
  hwaits := Pipeline.hwaits_of_owed_zero _ _ _ _ L lv 0 fun _ _ => rfl
  pre c := iprop(StableHlo.held (c : Thread nD τ) (Pipeline.ucRefs τ sig) (Gen.V0 m c) ∗ rest c)
  post c := iprop(StableHlo.held (c : Thread nD τ) (Pipeline.ucRefs τ sig) (Gen.V1 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun w => R0.A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => Gen.V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `Gen.V2` (which is the contents its proof
    data are stated at: `V2_outs`), left at `Gen.V3`. As region 0, but for the invariant: the class's invariant
    makes the region's own before the first point and the region's own gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (Vin1 m) c).loose
  hwaits := Pipeline.hwaits_of_owed_zero _ _ _ _ L lv 1 fun _ _ => rfl
  pre c := iprop(StableHlo.held (c : Thread nD τ) (Pipeline.ucRefs τ sig) (Gen.V2 m (outs m) c) ∗ rest c)
  post c := iprop(StableHlo.held (c : Thread nD τ) (Pipeline.ucRefs τ sig) (Gen.V3 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V2_outs m c]
    have hsplit := Pipeline.arrays_of_unscopedBufs (p := 1) (pcfgs (F := F)) adm (pdats m) launch1.win launch1.arr_whole c
      ((pdats m 1 c).share_full fun _ => rfl) (Vin1 m c) fun w => R1.A_eq1 (Vin1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin1 (Vin1 m) c)
    unfold Pipeline.ΦA
    iintro ⟨Hp, -, Hr⟩
    isplitl [Hr]; · iexact Hr
    iexact Hp
  hout c := by
    rw [Pipeline.ownSems0_none]
    refine BIBase.Entails.trans (R1.hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => Gen.V3 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: from any memory with zero counters every weakly fair execution of @main terminates, nothing faulting,
    with every unscoped buffer of every core at the last valuation. -/
theorem run : θ_run defs (onTc (τ := τ) (main (F := F))) ⟨m, fun _ => 0, ρ⟩ (fun r => ∀ c : Dev nD,
    ∀ b ∈ Pipeline.ucRefs τ sig, r.2.mem (((c : Thread nD τ)).1, b) = Gen.V3 m (outs m) c b) := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m))
    (fun c Q => by
      rewrite [main_chain c, Pipeline.Seg.run_eq_chain,
        show (Gen.segs m (outs m) 𝒱₀ L lv E () (pdats m) (reg0 m) (reg1 m) c).map Pipeline.Seg.prog = [
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V3 m (outs m) c))
    (hch := fun c => ⟨.rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V3 m (outs m) c b)
    (hfin := fun c s' => by
      iintro ⟨Hh, HSI⟩
      unfold StableHlo.held
      imodintro
      iapply (pointsTo_read_all (Pipeline.ucRefs τ sig) (fun b => (((c : Thread nD τ)).1, b)) (Gen.V3 m (outs m) c) s')
      isplitl [Hh] <;> iassumption)
    (hQ := fun _ h => h)

/-- The frame claim's post, at any `F`: each argument's buffer read off the last valuation. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (Gen.V3_main_arg0 m (outs m) c),
      (h c _ (mem_uc main_arg1 (by decide))).trans (Gen.V3_main_arg1 m (outs m) c),
      (h c _ (mem_uc main_arg2 (by decide))).trans (Gen.V3_main_arg2 m (outs m) c),
      (h c _ (mem_uc main_arg3 (by decide))).trans (Gen.V3_main_arg3 m (outs m) c),
      (h c _ (mem_uc main_arg4 (by decide))).trans (Gen.V3_main_arg4 m (outs m) c),
      (h c _ (mem_uc main_arg5 (by decide))).trans (Gen.V3_main_arg5 m (outs m) c)⟩) (run m ρ)

/-- The last valuation at region 1's output array is `o3`. -/
theorem V3_v14 (c : Dev nD) : Gen.V3 m (outs m) c main_v14 = o3 m c := by
  show Function.update (Gen.V2 m (outs m) c) (Proc.devRef .tc main_v14) (outs m 3 main_v14 c) (Proc.devRef .tc main_v14) = _
  rw [Function.update_self, outs_v14]
/-- The last valuation at `main_v13` is region 1's entry contents there: region 1 does not change it. -/
theorem V3_v13 (c : Dev nD) : Gen.V3 m (outs m) c main_v13 = Vin1 m c main_v13 :=
  (Gen.V3_of m (outs m) c main_v13 (by decide)).trans (congrFun (V2_outs m c) (Proc.devRef .tc main_v13))

/-- The two results and the arguments, read off the last valuation: `main_v14` at `o3`, `main_v13` at what the host
    stretch leaves there from `o1`. -/
theorem run_results : θ_run defs (onTc (τ := τ) (main (F := F))) ⟨m, fun _ => 0, ρ⟩ (fun r => ∀ c : Dev nD,
      r.2.mem ((c.tc : Thread nD τ).loc main_v14) = o3 m c
      ∧ r.2.mem ((c.tc : Thread nD τ).loc main_v13) = Vin1 m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v14 (by decide))).trans (V3_v14 m c),
      (h c _ (mem_uc main_v13 (by decide))).trans (V3_v13 m c),
      (h c _ (mem_uc main_arg0 (by decide))).trans (Gen.V3_main_arg0 m (outs m) c),
      (h c _ (mem_uc main_arg1 (by decide))).trans (Gen.V3_main_arg1 m (outs m) c),
      (h c _ (mem_uc main_arg2 (by decide))).trans (Gen.V3_main_arg2 m (outs m) c),
      (h c _ (mem_uc main_arg3 (by decide))).trans (Gen.V3_main_arg3 m (outs m) c),
      (h c _ (mem_uc main_arg4 (by decide))).trans (Gen.V3_main_arg4 m (outs m) c),
      (h c _ (mem_uc main_arg5 (by decide))).trans (Gen.V3_main_arg5 m (outs m) c)⟩) (run m ρ)

end Cert.KernelIdeal.Run

end
-- ==== Proof.Spec.lean ====
/-
  What the two programs compute, as functions of the six argument arrays over the extended reals, index by index.

  hidden : [64, 1024], feats : [64, 512, 2048], W : [512, 1024], U : [512, 2048], b : [512], w : [1, 512].

  * the energy of (batch p, time t):  e(p, t) = Σ_κ tanh((Σ_h hidden(p, h) · W(κ, h) + Σ_f feats(p, t, f) · U(κ, f)) + b(κ)) · w(0, κ);
  * the softmax over time of a batch row's energies, with the row's maximum taken from −∞ and subtracted first:
      M(p) = max(−∞, max_t e(p, t)),  x(p, t) = exp(e(p, t) − M(p)),  weights(p, t) = x(p, t) / Σ_t' x(p, t');
  * the attended features: out(p, f) = Σ_t feats(p, t, f) · weights(p, t).

  The kernel computes the last sum four time blocks of 128 at a time, adding each block's sum to an accumulator that
  starts at zero; over the extended reals addition is associative and commutative with no side condition, so the
  accumulated value is the one sum over all 512 time steps (`sum_blocks`).
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

namespace Cert.Spec

open Idealize.ShloMosaic Idealize.ShloMosaic.ValueIdx

abbrev S64x1024 : Shape := ⟨2, ![64, 1024]⟩
abbrev S64x512x2048 : Shape := ⟨3, ![64, 512, 2048]⟩
abbrev S512x1024 : Shape := ⟨2, ![512, 1024]⟩
abbrev S512x2048 : Shape := ⟨2, ![512, 2048]⟩
abbrev S512 : Shape := ⟨1, ![512]⟩
abbrev S1x512 : Shape := ⟨2, ![1, 512]⟩
abbrev S64x512x1 : Shape := ⟨3, ![64, 512, 1]⟩
abbrev S64x2048 : Shape := ⟨2, ![64, 2048]⟩

/-- The word of −∞, kept as the programs print it (both sides carry the same word; it is never evaluated). -/
abbrev ninf : EReal := Ideal.ofBits .f32 0xFF800000#32

section
variable (hid : S64x1024.Idx → EReal) (feats : S64x512x2048.Idx → EReal) (W : S512x1024.Idx → EReal)
  (U : S512x2048.Idx → EReal) (b : S512.Idx → EReal) (w : S1x512.Idx → EReal)

/-- The projection of batch row `p`'s hidden state onto bottleneck unit `κ`. -/
def wh (p : Fin 64) (κ : Fin 512) : EReal := ∑ h : Fin 1024, hid (ix2 p h) * W (ix2 κ h)
/-- The projection of the features at (batch `p`, time `t`) onto bottleneck unit `κ`. -/
def uv (p : Fin 64) (t : Fin 512) (κ : Fin 512) : EReal := ∑ f : Fin 2048, feats (ix3 p t f) * U (ix2 κ f)
/-- The energy of (batch `p`, time `t`). -/
def energyAt (p : Fin 64) (t : Fin 512) : EReal :=
  ∑ κ : Fin 512, Ideal.tanh ((wh hid W p κ + uv feats U p t κ) + b (ix1 κ)) * w (ix2 0 κ)
/-- The energies as a [64, 512, 1] array. -/
def energy : S64x512x1.Idx → EReal := fun i => energyAt hid feats W U b w (i 0) (i 1)
end

section
variable (e : S64x512x1.Idx → EReal)
/-- Batch row `p`'s maximal energy, as both programs take it: the maximum of −∞ and the fold of `max` from −∞ over time. -/
def rowMax (p : Fin 64) : EReal := max ninf (Finset.univ.fold max ninf fun t : Fin 512 => e (ix3 p t 0))
/-- The shifted exponential at (batch `p`, time `t`). -/
def expo (p : Fin 64) (t : Fin 512) : EReal := Ideal.exp (e (ix3 p t 0) - rowMax e p)
/-- The softmax's denominator for batch row `p`. -/
def denom (p : Fin 64) : EReal := ∑ t : Fin 512, expo e p t
/-- The softmax over time, as a [64, 512, 1] array. -/
def softmax3 : S64x512x1.Idx → EReal := fun i => Ideal.div (expo e (i 0) (i 1)) (denom e (i 0))
end

/-- The attended features: each feature's sum over time, weighted. -/
def wsum (feats : S64x512x2048.Idx → EReal) (wts : S64x512x1.Idx → EReal) : S64x2048.Idx → EReal :=
  fun j => ∑ t : Fin 512, feats (ix3 (j 0) t (j 1)) * wts (ix3 (j 0) t 0)

/-- Time step `k` of time block `q` (four blocks of 128). -/
def tIdx (q : Fin 4) (k : Fin 128) : Fin 512 := ⟨q.val * 128 + k.val, by have := q.isLt; have := k.isLt; omega⟩

/-- A sum over the 512 time steps is the four blocks' sums added to zero one after the other, in block order: the
    accumulator's value after the fourth block. Addition on the extended reals is an associative, commutative monoid
    operation, so no finiteness is needed. -/
theorem sum_blocks (g : Fin 512 → EReal) :
    ((((0 + ∑ k : Fin 128, g (tIdx 0 k)) + ∑ k : Fin 128, g (tIdx 1 k)) + ∑ k : Fin 128, g (tIdx 2 k)) + ∑ k : Fin 128, g (tIdx 3 k))
      = ∑ t : Fin 512, g t := by
  -- time step 128·q + k is the pair (q, k) under the bijection Fin 4 × Fin 128 ≃ Fin 512
  have hidx : ∀ (q : Fin 4) (k : Fin 128), tIdx q k = (finProdFinEquiv (q, k) : Fin (4 * 128)) := fun q k =>
    Fin.ext (by simp only [tIdx, finProdFinEquiv_apply_val]; omega)
  have hsplit : ∑ t : Fin 512, g t = ∑ q : Fin 4, ∑ k : Fin 128, g (tIdx q k) := by
    have h1 := (Equiv.sum_comp (finProdFinEquiv (m := 4) (n := 128)) (fun t : Fin (4 * 128) => g t)).symm
    rw [Fintype.sum_prod_type] at h1
    refine h1.trans (Finset.sum_congr rfl fun q _ => Finset.sum_congr rfl fun k _ => ?_)
    rw [hidx]
  rw [hsplit, Fin.sum_univ_four, zero_add]

end Cert.Spec

end
-- ==== Proof.Val0.lean ====
/-
  Region 0's output array at the ideal values. At grid point (bi, ti) the kernel writes the block of the energies of
  batch rows 8·bi … 8·bi + 7 and time steps 128·ti … 128·ti + 127: the two matrix products into zero accumulators are
  plain sums over the contracted axis, the lane reduction a plain sum over the bottleneck axis, the changes of float
  format the identity. The blocks tile the [64, 512, 1] array, so the array the region leaves is the energy function
  of the argument arrays.
-/
import proofs.«176767_j22514218566280_1_alg».proof.Proof.KernelIdeal.Run
import proofs.«176767_j22514218566280_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val0

open Idealize.ShloMosaic Idealize.ShloMosaic.TcCoe Idealize.ShloMosaic.ValueIdx
open Idealize.SL.Sem
open Idealize.ShloMosaic.Pipeline (Dat)
open Cert.KernelIdeal Cert.KernelIdeal.Gen

/-! ## The two matrix products into zero accumulators, read at an index -/

theorem hidW_lhs_0 (i : S8x512.Idx) (q : dot_S8x1024_S512x1024_S8x512_1_1_0_0_n_n.contr.Idx) :
    (dot_S8x1024_S512x1024_S8x512_1_1_0_0_n_n.lhsIdx i q 0).val = (i 0).val := by
  unfold DotDims.lhsIdx
  rw [dif_neg (show ¬(0 : Fin S8x1024.rank) ∈ dot_S8x1024_S512x1024_S8x512_1_1_0_0_n_n.lhsBatch by decide), dif_pos (show (0 : Fin S8x1024.rank) ∈ dot_S8x1024_S512x1024_S8x512_1_1_0_0_n_n.lhsNonContracting by decide)]
  rfl
theorem hidW_lhs_1 (i : S8x512.Idx) (q : dot_S8x1024_S512x1024_S8x512_1_1_0_0_n_n.contr.Idx) :
    (dot_S8x1024_S512x1024_S8x512_1_1_0_0_n_n.lhsIdx i q 1).val = (q ⟨0, by decide⟩).val :=
  dot_S8x1024_S512x1024_S8x512_1_1_0_0_n_n.lhsIdx_val_of_single rfl i q
theorem hidW_rhs_0 (i : S8x512.Idx) (q : dot_S8x1024_S512x1024_S8x512_1_1_0_0_n_n.contr.Idx) :
    (dot_S8x1024_S512x1024_S8x512_1_1_0_0_n_n.rhsIdx i q 0).val = (i 1).val := by
  unfold DotDims.rhsIdx
  rw [dif_neg (show ¬(0 : Fin S512x1024.rank) ∈ dot_S8x1024_S512x1024_S8x512_1_1_0_0_n_n.rhsBatch by decide), dif_pos (show (0 : Fin S512x1024.rank) ∈ dot_S8x1024_S512x1024_S8x512_1_1_0_0_n_n.rhsNonContracting by decide)]
  rfl
theorem hidW_rhs_1 (i : S8x512.Idx) (q : dot_S8x1024_S512x1024_S8x512_1_1_0_0_n_n.contr.Idx) :
    (dot_S8x1024_S512x1024_S8x512_1_1_0_0_n_n.rhsIdx i q 1).val = (q ⟨0, by decide⟩).val :=
  dot_S8x1024_S512x1024_S8x512_1_1_0_0_n_n.rhsIdx_val_of_single rfl i q

/-- The hidden-state product: entry (r, κ) is the sum over the hidden axis of row r of the left operand times row κ of
    the right (both operands are contracted on their second axis). -/
theorem hidW_apply (a : FVec Ideal S8x1024 .bf16) (b : FVec Ideal S512x1024 .bf16) (r : Fin 8) (κ : Fin 512) :
    matmul dot_S8x1024_S512x1024_S8x512_1_1_0_0_n_n none a b (constant (F := Ideal) S8x512 .f32 0x00000000#32) (ix2 r κ)
      = ∑ h : Fin 1024, a (ix2 r h) * b (ix2 κ h) := by
  simp only [matmul]
  rw [Ideal.matmul_constant_zero_apply, ← Equiv.sum_comp (contrEquiv1 dot_S8x1024_S512x1024_S8x512_1_1_0_0_n_n 1024 rfl rfl).symm]
  refine Finset.sum_congr rfl fun h _ => ?_
  have hk := contrEquiv1_symm_val dot_S8x1024_S512x1024_S8x512_1_1_0_0_n_n 1024 rfl rfl h
  have el : dot_S8x1024_S512x1024_S8x512_1_1_0_0_n_n.lhsIdx (ix2 r κ) ((contrEquiv1 dot_S8x1024_S512x1024_S8x512_1_1_0_0_n_n 1024 rfl rfl).symm h) = ix2 r h := funext fun c => Fin.ext (by
    match c with
    | ⟨0, _⟩ => exact hidW_lhs_0 _ _
    | ⟨1, _⟩ => exact (hidW_lhs_1 _ _).trans hk)
  have er : dot_S8x1024_S512x1024_S8x512_1_1_0_0_n_n.rhsIdx (ix2 r κ) ((contrEquiv1 dot_S8x1024_S512x1024_S8x512_1_1_0_0_n_n 1024 rfl rfl).symm h) = ix2 κ h := funext fun c => Fin.ext (by
    match c with
    | ⟨0, _⟩ => exact hidW_rhs_0 _ _
    | ⟨1, _⟩ => exact (hidW_rhs_1 _ _).trans hk)
  rw [el, er]

theorem featU_lhs_0 (i : S1024x512.Idx) (q : dot_S1024x2048_S512x2048_S1024x512_1_1_0_0_n_n.contr.Idx) :
    (dot_S1024x2048_S512x2048_S1024x512_1_1_0_0_n_n.lhsIdx i q 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl
theorem featU_lhs_1 (i : S1024x512.Idx) (q : dot_S1024x2048_S512x2048_S1024x512_1_1_0_0_n_n.contr.Idx) :
    (dot_S1024x2048_S512x2048_S1024x512_1_1_0_0_n_n.lhsIdx i q 1).val = (q ⟨0, by decide⟩).val :=
  dot_S1024x2048_S512x2048_S1024x512_1_1_0_0_n_n.lhsIdx_val_of_single rfl i q
theorem featU_rhs_0 (i : S1024x512.Idx) (q : dot_S1024x2048_S512x2048_S1024x512_1_1_0_0_n_n.contr.Idx) :
    (dot_S1024x2048_S512x2048_S1024x512_1_1_0_0_n_n.rhsIdx i q 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl
theorem featU_rhs_1 (i : S1024x512.Idx) (q : dot_S1024x2048_S512x2048_S1024x512_1_1_0_0_n_n.contr.Idx) :
    (dot_S1024x2048_S512x2048_S1024x512_1_1_0_0_n_n.rhsIdx i q 1).val = (q ⟨0, by decide⟩).val :=
  dot_S1024x2048_S512x2048_S1024x512_1_1_0_0_n_n.rhsIdx_val_of_single rfl i q

/-- The feature product on the flattened (batch, time) rows: entry (ρ, κ) is the sum over the feature axis of row ρ of the
    left operand times row κ of the right. -/
theorem featU_flat_apply (a : FVec Ideal S1024x2048 .bf16) (b : FVec Ideal S512x2048 .bf16) (ρ : Fin 1024) (κ : Fin 512) :
    matmul dot_S1024x2048_S512x2048_S1024x512_1_1_0_0_n_n none a b (constant (F := Ideal) S1024x512 .f32 0x00000000#32) (ix2 ρ κ)
      = ∑ f : Fin 2048, a (ix2 ρ f) * b (ix2 κ f) := by
  simp only [matmul]
  rw [Ideal.matmul_constant_zero_apply, ← Equiv.sum_comp (contrEquiv1 dot_S1024x2048_S512x2048_S1024x512_1_1_0_0_n_n 2048 rfl rfl).symm]
  refine Finset.sum_congr rfl fun f _ => ?_
  have hk := contrEquiv1_symm_val dot_S1024x2048_S512x2048_S1024x512_1_1_0_0_n_n 2048 rfl rfl f
  have el : dot_S1024x2048_S512x2048_S1024x512_1_1_0_0_n_n.lhsIdx (ix2 ρ κ) ((contrEquiv1 dot_S1024x2048_S512x2048_S1024x512_1_1_0_0_n_n 2048 rfl rfl).symm f) = ix2 ρ f := funext fun c => Fin.ext (by
    match c with
    | ⟨0, _⟩ => exact featU_lhs_0 _ _
    | ⟨1, _⟩ => exact (featU_lhs_1 _ _).trans hk)
  have er : dot_S1024x2048_S512x2048_S1024x512_1_1_0_0_n_n.rhsIdx (ix2 ρ κ) ((contrEquiv1 dot_S1024x2048_S512x2048_S1024x512_1_1_0_0_n_n 2048 rfl rfl).symm f) = ix2 κ f := funext fun c => Fin.ext (by
    match c with
    | ⟨0, _⟩ => exact featU_rhs_0 _ _
    | ⟨1, _⟩ => exact (featU_rhs_1 _ _).trans hk)
  rw [el, er]

/-! ## The layout operations of the body, read at an index -/

section Layout
variable {α : Type}

/-- Row r of the flattened (batch, time) axis is batch r / 128, time r % 128: the [8, 128, 2048] block seen as
    [1024, 2048] reads, at row r·128 + k, the block at (r, k). -/
theorem flat_apply (x : S8x128x2048.Idx → α) (h : S8x128x2048.ShapeCasts S1024x2048) (r : Fin 8) (k : Fin 128) (f : Fin 2048)
    (ρ : Fin 1024) (hρ : ρ.val = r.val * 128 + k.val) :
    shapeCast S1024x2048 x h (ix2 ρ f) = x (ix3 r k f) :=
  shapeCast_apply x h _ _ (by
    rw [Shape.rowMajor_val_three, Shape.rowMajor_val_two]
    show (r.val * 128 + k.val) * 2048 + f.val = ρ.val * 2048 + f.val
    rw [hρ])

/-- And back: the [1024, 512] product seen as [8, 128, 512] reads, at (r, k, κ), row r·128 + k. -/
theorem unflat_apply (y : S1024x512.Idx → α) (h : S1024x512.ShapeCasts S8x128x512) (r : Fin 8) (k : Fin 128) (κ : Fin 512)
    (ρ : Fin 1024) (hρ : ρ.val = r.val * 128 + k.val) :
    shapeCast S8x128x512 y h (ix3 r k κ) = y (ix2 ρ κ) :=
  shapeCast_apply y h _ _ (by
    rw [Shape.rowMajor_val_three, Shape.rowMajor_val_two]
    show ρ.val * 512 + κ.val = (r.val * 128 + k.val) * 512 + κ.val
    rw [hρ])

/-- An [8, 512] array given a unit time axis and broadcast over the 128 time steps reads, at (r, k, κ), its (r, κ). -/
theorem overTime_apply (a : S8x512.Idx → α) (h1 : S8x512.ShapeCasts S8x1x512) (h2 : S8x1x512.Broadcasts S8x128x512)
    (r : Fin 8) (k : Fin 128) (κ : Fin 512) :
    broadcastTo S8x128x512 (shapeCast S8x1x512 a h1) h2 (ix3 r k κ) = a (ix2 r κ) := by
  refine (broadcastTo_apply (shapeCast S8x1x512 a h1) h2 (ix3 r k κ) (ix3 r (0 : Fin 1) κ) fun ax => ?_).trans ?_
  · match ax with
    | ⟨0, _⟩ => show r.val = if (8 : Nat) = 1 then 0 else r.val; rw [if_neg (by decide)]
    | ⟨1, _⟩ => show 0 = if (1 : Nat) = 1 then 0 else k.val; rw [if_pos rfl]
    | ⟨2, _⟩ => show κ.val = if (512 : Nat) = 1 then 0 else κ.val; rw [if_neg (by decide)]
  · exact shapeCast_apply a h1 _ _ (by
      rw [Shape.rowMajor_val_three, Shape.rowMajor_val_two]
      show r.val * 512 + κ.val = (r.val * 1 + 0) * 512 + κ.val
      rw [Nat.mul_one, Nat.add_zero])

/-- A [512] vector given two unit axes and broadcast over batch and time reads, at (r, k, κ), its κ. -/
theorem overBatchTime_apply (b : S512.Idx → α) (h1 : S512.ShapeCasts S1x1x512) (h2 : S1x1x512.Broadcasts S8x128x512)
    (r : Fin 8) (k : Fin 128) (κ : Fin 512) :
    broadcastTo S8x128x512 (shapeCast S1x1x512 b h1) h2 (ix3 r k κ) = b (ix1 κ) := by
  refine (broadcastTo_apply (shapeCast S1x1x512 b h1) h2 (ix3 r k κ) (ix3 (0 : Fin 1) (0 : Fin 1) κ) fun ax => ?_).trans ?_
  · match ax with
    | ⟨0, _⟩ => show 0 = if (1 : Nat) = 1 then 0 else r.val; rw [if_pos rfl]
    | ⟨1, _⟩ => show 0 = if (1 : Nat) = 1 then 0 else k.val; rw [if_pos rfl]
    | ⟨2, _⟩ => show κ.val = if (512 : Nat) = 1 then 0 else κ.val; rw [if_neg (by decide)]
  · exact shapeCast_apply b h1 _ _ (by
      rw [Shape.rowMajor_val_three, Shape.rowMajor_val_one]
      show κ.val = (0 * 1 + 0) * 512 + κ.val
      omega)

end Layout

/-- The lane reduction over the bottleneck axis, then the trailing unit axis: at (r, k, 0) the plain sum over κ. -/
theorem laneSum_apply (v : FVec Ideal S8x128x512 .f32) (h : S8x128x512.Reduces [2] S8x128) (hφ : FKind.Formats .f32)
    (hacc : (0x00000000#32 : BitVec 32) = FKind.add.neutral .f32 hφ) (hc : S8x128.ShapeCasts S8x128x1)
    (r : Fin 8) (k : Fin 128) :
    shapeCast S8x128x1 (multiReduction (F := Ideal) .add [2] S8x128 v 0x00000000#32 h hφ hacc) hc (ix3 r k (0 : Fin 1))
      = ∑ κ : Fin 512, v (ix3 r k κ) := by
  refine (shapeCast_apply _ hc (ix3 r k (0 : Fin 1)) (ix2 r k) ?_).trans ?_
  · rw [Shape.rowMajor_val_three, Shape.rowMajor_val_two]
    show r.val * 128 + k.val = (r.val * 128 + k.val) * 1 + 0
    rw [Nat.mul_one, Nat.add_zero]
  · refine (Ideal.multiReduction_add_single v 0x00000000#32 h hφ hacc (ix2 r k)).trans ?_
    refine Finset.sum_congr rfl fun κ _ => congrArg v (funext fun c => Fin.ext ?_)
    match c with
    | ⟨0, _⟩ => rfl
    | ⟨1, _⟩ => rfl
    | ⟨2, _⟩ => rfl

/-! ## The body's stored value at an index -/

/-- The hidden-state product with the operands' change of float format (the identity on the extended reals). -/
theorem hidW_trunc_apply (x0 : FVec Ideal S8x1024 .f32) (x2 : FVec Ideal S512x1024 .f32) (hb : FTy.bits .bf16 < FTy.bits .f32)
    (r : Fin 8) (κ : Fin 512) :
    matmul dot_S8x1024_S512x1024_S8x512_1_1_0_0_n_n none (truncf .bf16 x0 hb) (truncf .bf16 x2 hb)
        (constant (F := Ideal) S8x512 .f32 0x00000000#32) (ix2 r κ)
      = ∑ h : Fin 1024, x0 (ix2 r h) * x2 (ix2 κ h) :=
  hidW_apply (truncf .bf16 x0 hb) (truncf .bf16 x2 hb) r κ

/-- The feature product on the block flattened to 1024 (batch, time) rows: at row r·128 + k the sum over the feature
    axis of the block at (r, k) times row κ of the right operand. -/
theorem featU_apply (x1 : FVec Ideal S8x128x2048 .f32) (x3 : FVec Ideal S512x2048 .f32) (hb : FTy.bits .bf16 < FTy.bits .f32)
    (hc : S8x128x2048.ShapeCasts S1024x2048) (r : Fin 8) (k : Fin 128) (κ : Fin 512) (ρ : Fin 1024) (hρ : ρ.val = r.val * 128 + k.val) :
    matmul dot_S1024x2048_S512x2048_S1024x512_1_1_0_0_n_n none (shapeCast S1024x2048 (truncf .bf16 x1 hb) hc) (truncf .bf16 x3 hb)
        (constant (F := Ideal) S1024x512 .f32 0x00000000#32) (ix2 ρ κ)
      = ∑ f : Fin 2048, x1 (ix3 r k f) * x3 (ix2 κ f) := by
  rw [featU_flat_apply]
  refine Finset.sum_congr rfl fun f _ => ?_
  rw [flat_apply (truncf .bf16 x1 hb) hc r k f ρ hρ]
  rfl

/-- One summand of the lane reduction: the two projections added, the bias added, the hyperbolic tangent taken, times
    the scoring weight; each operand read through its change of shape. -/
theorem summand_apply (a : FVec Ideal S8x512 .f32) (y : FVec Ideal S1024x512 .f32) (b : FVec Ideal S512 .f32) (w : FVec Ideal S1x512 .f32)
    (h1 : S8x512.ShapeCasts S8x1x512) (h2 : S8x1x512.Broadcasts S8x128x512) (h3 : S1024x512.ShapeCasts S8x128x512)
    (h4 : S512.ShapeCasts S1x1x512) (h5 : S1x1x512.Broadcasts S8x128x512) (h6 : S1x512.ShapeCasts S512)
    (r : Fin 8) (k : Fin 128) (κ : Fin 512) (ρ : Fin 1024) (hρ : ρ.val = r.val * 128 + k.val) :
    mulf (tanh (addf (addf (broadcastTo S8x128x512 (shapeCast S8x1x512 a h1) h2) (shapeCast S8x128x512 y h3))
        (broadcastTo S8x128x512 (shapeCast S1x1x512 b h4) h5)))
      (broadcastTo S8x128x512 (shapeCast S1x1x512 (shapeCast S512 w h6) h4) h5) (ix3 r k κ)
      = Ideal.tanh ((a (ix2 r κ) + y (ix2 ρ κ)) + b (ix1 κ)) * w (ix2 (0 : Fin 1) κ) := by
  show Ideal.tanh ((broadcastTo S8x128x512 (shapeCast S8x1x512 a h1) h2 (ix3 r k κ) + shapeCast S8x128x512 y h3 (ix3 r k κ))
        + broadcastTo S8x128x512 (shapeCast S1x1x512 b h4) h5 (ix3 r k κ))
      * broadcastTo S8x128x512 (shapeCast S1x1x512 (shapeCast S512 w h6) h4) h5 (ix3 r k κ) = _
  rw [overTime_apply, unflat_apply y h3 r k κ ρ hρ, overBatchTime_apply, overBatchTime_apply, shapeCast_1a_a_apply]

/-- THE STORED BLOCK AT AN INDEX: the energy of the block's (batch r, time k) from the six loaded blocks. -/
theorem pay_apply (x0 : Vec Ideal S8x1024 .f32) (x1 : Vec Ideal S8x128x2048 .f32) (x2 : Vec Ideal S512x1024 .f32)
    (x3 : Vec Ideal S512x2048 .f32) (x4 : Vec Ideal S512 .f32) (x5 : Vec Ideal S1x512 .f32) (r : Fin 8) (k : Fin 128) :
    k0_pay1 (F := Ideal) x0 x2 x1 x3 x4 x5 (ix3 r k (0 : Fin 1))
      = ∑ κ : Fin 512, Ideal.tanh ((∑ h : Fin 1024, x0 (ix2 r h) * x2 (ix2 κ h) + ∑ f : Fin 2048, x1 (ix3 r k f) * x3 (ix2 κ f))
          + x4 (ix1 κ)) * x5 (ix2 (0 : Fin 1) κ) := by
  unfold k0_pay1
  dsimp only
  refine (laneSum_apply _ _ _ _ _ r k).trans ?_
  refine Finset.sum_congr rfl fun κ _ => ?_
  refine (summand_apply _ _ _ _ _ _ _ _ _ _ r k κ ⟨r.val * 128 + k.val, by have := r.isLt; have := k.isLt; omega⟩ rfl).trans ?_
  rw [hidW_trunc_apply, featU_apply x1 x3 _ _ r k κ _ rfl]

/-! ## From the blocks to the array -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body at (r, k, 0), from the six input blocks: every access of the body is a whole buffer,
    so the block is the stored value of the loaded blocks themselves. -/
theorem out_apply (x0 : Vec Ideal S8x1024 .f32) (x1 : Vec Ideal S8x128x2048 .f32) (x2 : Vec Ideal S512x1024 .f32)
    (x3 : Vec Ideal S512x2048 .f32) (x4 : Vec Ideal S512 .f32) (x5 : Vec Ideal S1x512 .f32) (r : Fin 8) (k : Fin 128) :
    R0.out0_6 (F := Ideal) x0 x1 x2 x3 x4 x5 (ix3 r k (0 : Fin 1))
      = ∑ κ : Fin 512, Ideal.tanh ((∑ h : Fin 1024, x0 (ix2 r h) * x2 (ix2 κ h) + ∑ f : Fin 2048, x1 (ix3 r k f) * x3 (ix2 κ f))
          + x4 (ix1 κ)) * x5 (ix2 (0 : Fin 1) κ) := by
  unfold R0.out0_6
  rw [View.canon_unit_zero hz3]
  simp only [View.ld_unit_zero (S := S8x1024) hz2, View.ld_unit_zero (S := S8x128x2048) hz3, View.ld_unit_zero (S := S512x1024) hz2,
    View.ld_unit_zero (S := S512x2048) hz2, View.ld_unit_zero (S := S512) hz1, View.ld_unit_zero (S := S1x512) hz2]
  exact pay_apply x0 x1 x2 x3 x4 x5 r k

variable (m : (ℓ : Loc nD τ sig) → Buf (Elt Ideal) ℓ)

/-- The six argument arrays on core c, at their literal types. -/
abbrev hidA (c : Dev nD) : S64x1024.Idx → EReal := m ((c : Thread nD τ).loc main_arg0)
abbrev featsA (c : Dev nD) : S64x512x2048.Idx → EReal := m ((c : Thread nD τ).loc main_arg1)
abbrev WA (c : Dev nD) : S512x1024.Idx → EReal := m ((c : Thread nD τ).loc main_arg2)
abbrev UA (c : Dev nD) : S512x2048.Idx → EReal := m ((c : Thread nD τ).loc main_arg3)
abbrev bA (c : Dev nD) : S512.Idx → EReal := m ((c : Thread nD τ).loc main_arg4)
abbrev wA (c : Dev nD) : S1x512.Idx → EReal := m ((c : Thread nD τ).loc main_arg5)
/-- Their energies. -/
abbrev energyA (c : Dev nD) : S64x512x1.Idx → EReal :=
  Cert.Spec.energy (hidA m c) (featsA m c) (WA m c) (UA m c) (bA m c) (wA m c)

/-- The six input blocks at grid point t, at their literal types. -/
abbrev hidB (c : Dev nD) (t : Fin cfg0.N) : Vec Ideal S8x1024 .f32 := R0.iblk0 (Run.Vin0 m) c 0 t
abbrev featsB (c : Dev nD) (t : Fin cfg0.N) : Vec Ideal S8x128x2048 .f32 := R0.iblk0 (Run.Vin0 m) c 1 t
abbrev WB (c : Dev nD) (t : Fin cfg0.N) : Vec Ideal S512x1024 .f32 := R0.iblk0 (Run.Vin0 m) c 2 t
abbrev UB (c : Dev nD) (t : Fin cfg0.N) : Vec Ideal S512x2048 .f32 := R0.iblk0 (Run.Vin0 m) c 3 t
abbrev bB (c : Dev nD) (t : Fin cfg0.N) : Vec Ideal S512 .f32 := R0.iblk0 (Run.Vin0 m) c 4 t
abbrev wB (c : Dev nD) (t : Fin cfg0.N) : Vec Ideal S1x512 .f32 := R0.iblk0 (Run.Vin0 m) c 5 t

/-- The printed index maps over the grid: the hidden-state block moves with the output's batch block, the feature block
    with its batch and time blocks; the four weight arrays are whole; the output's block indices stay in range. -/
theorem idx_facts : ∀ t : Fin cfg0.N,
    win0_0.index t (0 : Fin 2) = win0_6.index t (0 : Fin 3) ∧ win0_0.index t (1 : Fin 2) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 3) ≤ 7 ∧ win0_6.index t (1 : Fin 3) ≤ 3 ∧ win0_6.index t (2 : Fin 3) = 0 :=
  (by decide +kernel : ∀ t : Fin grid0.N, _)

/-- Every (batch block, time block) pair is some grid point's. -/
theorem idx_onto : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

/-- The hidden-state block at t holds batch rows 8·bi + r. -/
theorem hidB_apply (c : Dev nD) (t : Fin cfg0.N) (r : Fin 8) (h : Fin 1024) (p : Fin 64)
    (hp : p.val = win0_6.index t (0 : Fin 3) * 8 + r.val) : hidB m c t (ix2 r h) = hidA m c (ix2 p h) := by
  obtain ⟨e0, e1, -⟩ := idx_facts t
  show m ((c : Thread nD τ).loc main_arg0) (((cfg0.win 0).blk t).view.emb (ix2 r h)) = m ((c : Thread nD τ).loc main_arg0) (ix2 p h)
  refine congrArg _ (funext fun a => Fin.ext ?_)
  match a with
  | ⟨0, _⟩ => show win0_0.index t (0 : Fin 2) * 8 + 1 * r.val = p.val; omega
  | ⟨1, _⟩ => show win0_0.index t (1 : Fin 2) * 1024 + 1 * h.val = h.val; omega

/-- The feature block at t holds batch rows 8·bi + r and time steps 128·ti + k. -/
theorem featsB_apply (c : Dev nD) (t : Fin cfg0.N) (r : Fin 8) (k : Fin 128) (f : Fin 2048) (p : Fin 64) (s : Fin 512)
    (hp : p.val = win0_6.index t (0 : Fin 3) * 8 + r.val) (hs : s.val = win0_6.index t (1 : Fin 3) * 128 + k.val) :
    featsB m c t (ix3 r k f) = featsA m c (ix3 p s f) := by
  obtain ⟨-, -, e2, e3, e4, -⟩ := idx_facts t
  show m ((c : Thread nD τ).loc main_arg1) (((cfg0.win 1).blk t).view.emb (ix3 r k f)) = m ((c : Thread nD τ).loc main_arg1) (ix3 p s f)
  refine congrArg _ (funext fun a => Fin.ext ?_)
  match a with
  | ⟨0, _⟩ => show win0_1.index t (0 : Fin 3) * 8 + 1 * r.val = p.val; omega
  | ⟨1, _⟩ => show win0_1.index t (1 : Fin 3) * 128 + 1 * k.val = s.val; omega
  | ⟨2, _⟩ => show win0_1.index t (2 : Fin 3) * 2048 + 1 * f.val = f.val; omega

/-- The four weight blocks are their whole arrays at every point. -/
theorem WB_eq (c : Dev nD) (t : Fin cfg0.N) : WB m c t = WA m c := by
  obtain ⟨-, -, -, -, -, e5, e6, -⟩ := idx_facts t
  funext y
  show m ((c : Thread nD τ).loc main_arg2) (((cfg0.win 2).blk t).view.emb y) = m ((c : Thread nD τ).loc main_arg2) y
  refine congrArg _ (funext fun a => Fin.ext ?_)
  match a with
  | ⟨0, _⟩ => show win0_2.index t (0 : Fin 2) * 512 + 1 * (y 0).val = (y 0).val; omega
  | ⟨1, _⟩ => show win0_2.index t (1 : Fin 2) * 1024 + 1 * (y 1).val = (y 1).val; omega
theorem UB_eq (c : Dev nD) (t : Fin cfg0.N) : UB m c t = UA m c := by
  obtain ⟨-, -, -, -, -, -, -, e7, e8, -⟩ := idx_facts t
  funext y
  show m ((c : Thread nD τ).loc main_arg3) (((cfg0.win 3).blk t).view.emb y) = m ((c : Thread nD τ).loc main_arg3) y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 2048 + 1 * (y 1).val = (y 1).val; omega
theorem bB_eq (c : Dev nD) (t : Fin cfg0.N) : bB m c t = bA m c := by
  obtain ⟨-, -, -, -, -, -, -, -, -, e9, -⟩ := idx_facts t
  funext y
  show m ((c : Thread nD τ).loc main_arg4) (((cfg0.win 4).blk t).view.emb y) = m ((c : Thread nD τ).loc main_arg4) y
  refine congrArg _ (funext fun a => Fin.ext ?_)
  match a with
  | ⟨0, _⟩ => show win0_4.index t (0 : Fin 1) * 512 + 1 * (y 0).val = (y 0).val; omega
theorem wB_eq (c : Dev nD) (t : Fin cfg0.N) : wB m c t = wA m c := by
  obtain ⟨-, -, -, -, -, -, -, -, -, -, e10, e11, -⟩ := idx_facts t
  funext y
  show m ((c : Thread nD τ).loc main_arg5) (((cfg0.win 5).blk t).view.emb y) = m ((c : Thread nD τ).loc main_arg5) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

/-- The energy formula of blocks that are the arrays' rows p and (p, s) is the energy at (p, s). -/
theorem energy_of_blocks (x0 : S8x1024.Idx → EReal) (x1 : S8x128x2048.Idx → EReal)
    (hid : S64x1024.Idx → EReal) (feats : S64x512x2048.Idx → EReal) (W : S512x1024.Idx → EReal) (U : S512x2048.Idx → EReal)
    (b : S512.Idx → EReal) (w : S1x512.Idx → EReal) (r : Fin 8) (k : Fin 128) (p : Fin 64) (s : Fin 512)
    (h0 : ∀ h, x0 (ix2 r h) = hid (ix2 p h)) (h1 : ∀ f, x1 (ix3 r k f) = feats (ix3 p s f)) :
    (∑ κ : Fin 512, Ideal.tanh ((∑ h : Fin 1024, x0 (ix2 r h) * W (ix2 κ h) + ∑ f : Fin 2048, x1 (ix3 r k f) * U (ix2 κ f))
          + b (ix1 κ)) * w (ix2 (0 : Fin 1) κ))
      = Cert.Spec.energyAt hid feats W U b w p s := by
  unfold Cert.Spec.energyAt Cert.Spec.wh Cert.Spec.uv
  simp only [h0, h1]

/-- Two functions on the [8, 128, 1] block agree when they agree at every (r, k, 0). -/
theorem ext_block {α : Type} (f g : S8x128x1.Idx → α) (h : ∀ (r : Fin 8) (k : Fin 128), f (ix3 r k (0 : Fin 1)) = g (ix3 r k (0 : Fin 1))) :
    f = g :=
  funext fun j => by
    obtain ⟨r, k, u, rfl⟩ : ∃ (r : Fin 8) (k : Fin 128) (u : Fin 1), j = ix3 r k u := ⟨j 0, j 1, j 2, eq_ix3 j⟩
    obtain rfl : u = 0 := Subsingleton.elim _ _
    exact h r k

/-- The array's index under (r, k, 0) of the output block at t is (8·bi + r, 128·ti + k, 0). -/
theorem outBlk_read (c : Dev nD) (t : Fin cfg0.N) (r : Fin 8) (k : Fin 128) (p : Fin 64) (s : Fin 512)
    (hp : p.val = win0_6.index t (0 : Fin 3) * 8 + r.val) (hs : s.val = win0_6.index t (1 : Fin 3) * 128 + k.val) :
    ((cfg0.win 6).blk t).view.read (Elt Ideal) (energyA m c) (ix3 r k (0 : Fin 1))
      = Cert.Spec.energyAt (hidA m c) (featsA m c) (WA m c) (UA m c) (bA m c) (wA m c) p s := by
  obtain ⟨-, -, -, -, -, -, -, -, -, -, -, -, -, -, e14⟩ := idx_facts t
  show energyA m c (((cfg0.win 6).blk t).view.emb (ix3 r k (0 : Fin 1))) = _
  have he : ((cfg0.win 6).blk t).view.emb (ix3 r k (0 : Fin 1)) = (ix3 p s (0 : Fin 1) : S64x512x1.Idx) := by
    funext a; apply Fin.ext
    match a with
    | ⟨0, _⟩ => show win0_6.index t (0 : Fin 3) * 8 + 1 * r.val = p.val; omega
    | ⟨1, _⟩ => show win0_6.index t (1 : Fin 3) * 128 + 1 * k.val = s.val; omega
    | ⟨2, _⟩ => show win0_6.index t (2 : Fin 3) * 1 + 1 * 0 = 0; omega
  rw [he]
  rfl

/-- WHAT POINT t WRITES BACK is block t of the energies of the argument arrays. -/
theorem flushed_eq (c : Dev nD) (t : Fin cfg0.N) :
    (R0.dat0 (Run.Vin0 m) c).flushed 6 t = ((cfg0.win 6).blk t).view.read (Elt Ideal) (energyA m c) := by
  show (cfg0.win 6).cut (grid0.coords t) ((R0.dat0 (Run.Vin0 m) c).after 6 t) = _
  rw [R0.after0_6]
  obtain ⟨-, -, -, -, -, -, -, -, -, -, -, -, e12, e13, -⟩ := idx_facts t
  refine ext_block (R0.out0_6 (F := Ideal) (hidB m c t) (featsB m c t) (WB m c t) (UB m c t) (bB m c t) (wB m c t))
    (((cfg0.win 6).blk t).view.read (Elt Ideal) (energyA m c)) fun r k => ?_
  have hr := r.isLt
  have hk := k.isLt
  refine (out_apply (hidB m c t) (featsB m c t) (WB m c t) (UB m c t) (bB m c t) (wB m c t) r k).trans ?_
  rw [WB_eq, UB_eq, bB_eq, wB_eq]
  refine (energy_of_blocks (hidB m c t) (featsB m c t) (hidA m c) (featsA m c) (WA m c) (UA m c) (bA m c) (wA m c) r k
    ⟨win0_6.index t (0 : Fin 3) * 8 + r.val, by omega⟩ ⟨win0_6.index t (1 : Fin 3) * 128 + k.val, by omega⟩
    (fun h => hidB_apply m c t r h _ rfl) (fun f => featsB_apply m c t r k f _ _ rfl rfl)).trans ?_
  exact (outBlk_read m c t r k _ _ rfl rfl).symm

/-- An index of the array is in point t's block iff each coordinate is in the block's range on its axis. -/
theorem mem_blk (t : Fin cfg0.N) (i : S64x512x1.Idx) :
    i ∈ ((cfg0.win 6).blk t).view.set ↔ ∀ a : Fin 3, win0_6.index t a * S8x128x1.size a ≤ (i a).val ∧ (i a).val < win0_6.index t a * S8x128x1.size a + S8x128x1.size a := by
  show i ∈ ((View.whole main_v0).slice (win0_6.rect t)).set ↔ _
  rw [View.set_slice_whole, Rect.mem_set_unit]
  exact Iff.rfl

/-- The blocks tile the array: index (p, s, 0) lies in the block of batch block p / 8 and time block s / 128. -/
theorem covered (i : S64x512x1.Idx) :
    ∃ t : Fin cfg0.N, (cfg0.win 6).flush t = true ∧ i ∈ ((cfg0.win 6).blk t).view.set := by
  have hi0 : (i 0).val < 64 := (i 0).isLt
  have hi1 : (i 1).val < 512 := (i 1).isLt
  have hi2 : (i 2).val < 1 := (i 2).isLt
  obtain ⟨t, ht⟩ := idx_onto ⟨(i 0).val / 8, by omega⟩ ⟨(i 1).val / 128, by omega⟩
  have q0 : win0_6.index t (0 : Fin 3) = (i 0).val / 8 := congrFun ht 0
  have q1 : win0_6.index t (1 : Fin 3) = (i 1).val / 128 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 8 ≤ (i 0).val ∧ (i 0).val < win0_6.index t (0 : Fin 3) * 8 + 8; omega
  | ⟨1, _⟩ => show win0_6.index t (1 : Fin 3) * 128 ≤ (i 1).val ∧ (i 1).val < win0_6.index t (1 : Fin 3) * 128 + 128; omega
  | ⟨2, _⟩ => show win0_6.index t (2 : Fin 3) * 1 ≤ (i 2).val ∧ (i 2).val < win0_6.index t (2 : Fin 3) * 1 + 1; omega

/-- What region 0 leaves in `main_v0` is the energy function of the six argument arrays. -/
theorem o1_eq (c : Dev nD) :
    Run.o1 (F := Ideal) m c = Cert.Spec.energy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Run.o1
  exact (R0.dat0 (Run.Vin0 m) c).arrAt_eq_of_cover 6 (energyA m c) (fun t _ => flushed_eq m c t) covered

end Cert.KernelIdeal.Val0

end
-- ==== Proof.HostVal.lean ====
/-
  The host stretch between the two regions at the ideal values: the softmax over time of the energies region 0 left
  (reshaped to [64, 512], the row maximum taken from −∞ and subtracted, exponentials, the row sum from zero, the
  quotient, broadcast back to [64, 512, 1]), read index by index; and the arguments, which the stretch does not write.

  The stretch's sixteen operations compose to one term in the energies (`softmaxChain`). Read at (p, t, 0) it is
  exp(e(p, t, 0) − M(p)) / Σ_t' exp(e(p, t', 0) − M(p)) with M(p) = max(−∞, max_t e(p, t, 0)): the reshape and the
  broadcasts only rename indices, the maximum over a row is a fold of `max` over the row's 512 entries, and the sum
  over a row from zero is the plain sum of its 512 entries.
-/
import proofs.«176767_j22514218566280_1_alg».proof.Proof.KernelIdeal.Run
import proofs.«176767_j22514218566280_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost
import Idealize.ShloMosaic.Lib.StableHlo.Run

set_option maxRecDepth 16384

noncomputable section

namespace Cert.KernelIdeal.HostVal

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-! ## The stretch as one pure term -/

/-- The energies with the trailing unit axis dropped: a [64, 512] array. -/
def flat (e : FVec Ideal S64x512x1 .f32) : FVec Ideal S64x512 .f32 :=
  shapeCast S64x512 e shapeCasts_S64x512x1_S64x512

/-- Each batch row's maximum over time, the fold started from the word of −∞ and the result joined with −∞ once more. -/
def hmax (x : FVec Ideal S64x512 .f32) : FVec Ideal S64 .f32 :=
  maximumf (broadcastInDim S64 ![] bcast_S_S64 (constant (F := Ideal) S_ .f32 0xFF800000#32))
    (Host.reduce FloatOps.maximumf x (constant (F := Ideal) S_ .f32 0xFF800000#32) reducesTo_S64x512_S64_d1 h_S_)

/-- A per-row value repeated along time: [64] to [64, 1] to [64, 512]. -/
def rows (v : FVec Ideal S64 .f32) : FVec Ideal S64x512 .f32 :=
  broadcastInDim S64x512 ![0, 1] bcast_S64x1_S64x512_0_1 (broadcastInDim S64x1 ![0] bcast_S64_S64x1_0 v)

/-- The exponentials of the energies less their row's maximum. -/
def hexp (x : FVec Ideal S64x512 .f32) : FVec Ideal S64x512 .f32 :=
  Host.exp (F := Ideal) (subf x (rows (hmax x)))

/-- Each batch row's sum over time, started from the zero word. -/
def hsum (y : FVec Ideal S64x512 .f32) : FVec Ideal S64 .f32 :=
  Host.reduceAdd (F := Ideal) y (constant (F := Ideal) S_ .f32 0x00000000#32) reducesTo_S64x512_S64_d1 h_S_

/-- The quotient of each exponential by its row's sum. -/
def hsoft (x : FVec Ideal S64x512 .f32) : FVec Ideal S64x512 .f32 :=
  Host.divf (F := Ideal) (hexp x) (rows (hsum (hexp x)))

/-- The whole stretch: from the [64, 512, 1] energies to the [64, 512, 1] weights. -/
def softmaxChain (e : FVec Ideal S64x512x1 .f32) : FVec Ideal S64x512x1 .f32 :=
  broadcastInDim S64x512x1 ![0, 1] bcast_S64x512_S64x512x1_0_1 (hsoft (flat e))

/-! ## The stretch's result is that term -/

/-- After region 0 the output array holds what region 0 left there. -/
theorem v1_v0 (c : Dev nD) : Gen.V1 m (Run.outsA m) c (Proc.devRef .tc main_v0) = Run.o1 m c := by
  show Function.update (Gen.V0 m c) (Proc.devRef .tc main_v0) (Run.outsA m 1 main_v0 c) (Proc.devRef .tc main_v0) = _
  rw [Function.update_self]
  unfold Run.outsA
  rw [Function.update_self]

/-- The sixteen operations, composed, applied to what region 0 left. -/
theorem vin1_v13 (c : Dev nD) : Run.Vin1 (F := Ideal) m c main_v13 = softmaxChain (Run.o1 (F := Ideal) m c) := by
  show StableHlo.after hostOps1 _ (Proc.devRef .tc main_v13) = _
  after_results
  rw [v1_v0]
  generalize Run.o1 (F := Ideal) m c = e
  rfl

/-! ## The term read index by index -/

theorem reduces_d1 : S64x512.Reduces [1] S64 := by decide

/-- Dropping the unit axis: (p, t) reads (p, t, 0). -/
theorem flat_apply (e : FVec Ideal S64x512x1 .f32) (p : Fin 64) (t : Fin 512) :
    flat e (ix2 p t) = e (ix3 p t 0) := by
  unfold flat
  refine shapeCast_apply e shapeCasts_S64x512x1_S64x512 (ix2 p t) (ix3 p t 0) ?_
  rw [Shape.rowMajor_val_three, Shape.rowMajor_val_two]
  show (p.val * 512 + t.val) * 1 + 0 = p.val * 512 + t.val
  omega

/-- A per-row value repeated along time reads the row's value. -/
theorem rows_apply (v : FVec Ideal S64 .f32) (p : Fin 64) (t : Fin 512) :
    rows v (ix2 p t) = v (ix1 p) := by
  unfold rows
  refine (broadcastInDim_apply _ bcast_S64x1_S64x512_0_1 _ (ix2 p t) (ix2 p 0) (fun a => match a with
    | ⟨0, _⟩ => by show p.val = if (64 : Nat) = 1 then 0 else p.val; rw [if_neg (by decide)]
    | ⟨1, _⟩ => by show 0 = if (1 : Nat) = 1 then 0 else t.val; rw [if_pos rfl])).trans ?_
  exact broadcastInDim_apply _ bcast_S64_S64x1_0 v (ix2 p 0) (ix1 p) (fun a => match a with
    | ⟨0, _⟩ => by show p.val = if (64 : Nat) = 1 then 0 else p.val; rw [if_neg (by decide)])

/-- The index over row `p` with time `t` inserted is (p, t). -/
theorem lift_eq (p : Fin 64) (t : Fin 512) : reduces_d1.lift (ix1 p) t = ix2 p t :=
  funext fun a => match a with
    | ⟨0, _⟩ => Fin.ext rfl
    | ⟨1, _⟩ => Fin.ext rfl

/-- A row's maximum: the maximum of −∞ and the fold of `max` from −∞ over the row's entries. -/
theorem hmax_apply (x : FVec Ideal S64x512 .f32) (p : Fin 64) :
    hmax x (ix1 p) = max Cert.Spec.ninf (Finset.univ.fold max Cert.Spec.ninf fun t : Fin 512 => x (ix2 p t)) := by
  unfold hmax
  refine congrArg (max Cert.Spec.ninf) ?_
  refine (Host.reduce_eq_fold_single (FloatOps.maximumf (F := Ideal) (φ := .f32)) x
    (constant (F := Ideal) S_ .f32 0xFF800000#32) reducesTo_S64x512_S64_d1 reduces_d1 h_S_ (ix1 p)).trans ?_
  exact congrArg (fun g : Fin 512 → EReal => Finset.univ.fold max Cert.Spec.ninf g)
    (funext fun t => congrArg x (lift_eq p t))

/-- An exponential: of the entry less its row's maximum. -/
theorem hexp_apply (x : FVec Ideal S64x512 .f32) (p : Fin 64) (t : Fin 512) :
    hexp x (ix2 p t) = Ideal.exp (x (ix2 p t) - hmax x (ix1 p)) := by
  unfold hexp
  show Ideal.exp (x (ix2 p t) - rows (hmax x) (ix2 p t)) = _
  rw [rows_apply]

/-- A row's sum: zero plus the sum of the row's entries. -/
theorem hsum_apply (y : FVec Ideal S64x512 .f32) (p : Fin 64) :
    hsum y (ix1 p) = ∑ t : Fin 512, y (ix2 p t) := by
  unfold hsum
  rw [hostReduceAdd_apply, Ideal.hostReduceAdd_single reducesTo_S64x512_S64_d1 reduces_d1]
  show Ideal.ofBits .f32 0x00000000#32 + _ = _
  rw [Ideal.ofBits_zero_f32, zero_add]
  exact Finset.sum_congr rfl fun t _ => congrArg y (lift_eq p t)

/-- A weight: the exponential over its row's sum of exponentials. -/
theorem hsoft_apply (x : FVec Ideal S64x512 .f32) (p : Fin 64) (t : Fin 512) :
    hsoft x (ix2 p t) = Ideal.div (hexp x (ix2 p t)) (hsum (hexp x) (ix1 p)) := by
  unfold hsoft
  show Ideal.div (hexp x (ix2 p t)) (rows (hsum (hexp x)) (ix2 p t)) = _
  rw [rows_apply]

/-- Putting the unit axis back: (p, t, 0) reads (p, t). -/
theorem softmaxChain_apply (e : FVec Ideal S64x512x1 .f32) (p : Fin 64) (t : Fin 512) :
    softmaxChain e (ix3 p t 0) = hsoft (flat e) (ix2 p t) := by
  unfold softmaxChain
  exact broadcastInDim_apply _ bcast_S64x512_S64x512x1_0_1 _ (ix3 p t 0) (ix2 p t) (fun a => match a with
    | ⟨0, _⟩ => by show p.val = if (64 : Nat) = 1 then 0 else p.val; rw [if_neg (by decide)]
    | ⟨1, _⟩ => by show t.val = if (512 : Nat) = 1 then 0 else t.val; rw [if_neg (by decide)])

/-! ## The term is the specification's softmax -/

theorem hmax_flat (e : FVec Ideal S64x512x1 .f32) (p : Fin 64) :
    hmax (flat e) (ix1 p) = Cert.Spec.rowMax e p := by
  rw [hmax_apply]
  unfold Cert.Spec.rowMax
  exact congrArg (fun g : Fin 512 → EReal => max Cert.Spec.ninf (Finset.univ.fold max Cert.Spec.ninf g))
    (funext fun t => flat_apply e p t)

theorem hexp_flat (e : FVec Ideal S64x512x1 .f32) (p : Fin 64) (t : Fin 512) :
    hexp (flat e) (ix2 p t) = Cert.Spec.expo e p t := by
  rw [hexp_apply, flat_apply, hmax_flat]
  rfl

theorem hsum_flat (e : FVec Ideal S64x512x1 .f32) (p : Fin 64) :
    hsum (hexp (flat e)) (ix1 p) = Cert.Spec.denom e p := by
  rw [hsum_apply]
  unfold Cert.Spec.denom
  exact Finset.sum_congr rfl fun t _ => hexp_flat e p t

/-- The stretch computes the softmax over time. -/
theorem softmaxChain_eq (e : FVec Ideal S64x512x1 .f32) : softmaxChain e = Cert.Spec.softmax3 e := by
  funext i
  obtain ⟨p, t, z, rfl⟩ : ∃ (p : Fin 64) (t : Fin 512) (z : Fin 1), i = ix3 p t z := ⟨i 0, i 1, i 2, eq_ix3 i⟩
  obtain rfl : z = 0 := Fin.eq_zero z
  rw [softmaxChain_apply, hsoft_apply, hexp_flat, hsum_flat]
  rfl

/-! ## The two facts the neighbours use -/

/-- The weights region 1 is entered with are the softmax over time of what region 0 left. -/
theorem v13_eq (c : Dev nD) :
    Run.Vin1 (F := Ideal) m c main_v13 = Cert.Spec.softmax3 (Run.o1 (F := Ideal) m c) :=
  (vin1_v13 m c).trans (softmaxChain_eq _)

/-- Region 1 is entered with the features as launched: neither region 0 nor the host stretch writes them. -/
theorem arg1_eq (c : Dev nD) :
    Run.Vin1 (F := Ideal) m c main_arg1 = m ((c : Thread nD τ).loc main_arg1) :=
  (Gen.V2_of m _ c main_arg1 (by decide)).trans ((Gen.V1_of m _ c main_arg1 (by decide)).trans rfl)

end Cert.KernelIdeal.HostVal

end
-- ==== Proof.Val1.lean ====
/-
  Region 1's output array at the ideal values. For batch block bi the scratch after time block ti holds, at (row r,
  feature f), the sum over the time blocks 0 … ti of the block's weighted sum Σ_k feats(8·bi + r, 128·q + k, f) ·
  weights(8·bi + r, 128·q + k, 0), added one after the other to zero; after the fourth block that is the sum over all
  512 time steps (`Spec.sum_blocks`), which the kernel copies to the output block and the pipeline writes back to rows
  8·bi … 8·bi + 7 of the [64, 2048] array.
-/
import proofs.«176767_j22514218566280_1_alg».proof.Proof.KernelIdeal.Run
import proofs.«176767_j22514218566280_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val1

open Idealize.ShloMosaic Idealize.ShloMosaic.TcCoe Idealize.ShloMosaic.ValueIdx
open Idealize.SL.Sem
open Idealize.ShloMosaic.Pipeline (Dat)
open Cert.KernelIdeal Cert.KernelIdeal.Gen

variable (m : (ℓ : Loc nD τ sig) → Buf (Elt Ideal) ℓ)

/-- The zero splat at an index. -/
theorem pay1_apply (r : Fin 8) (f : Fin 2048) : (k1_pay1 (F := Ideal)) (ix2 r f) = 0 := by
  unfold k1_pay1
  rw [shapeCast_self]
  show Ideal.ofBits .f32 0x00000000#32 = 0
  exact Ideal.ofBits_zero_f32

/-- The sum over the block's 128 time steps (axis 1) at (row `r`, feature `f`) is the plain sum of the entries (r, k, f). -/
theorem lane_sum (src : FVec Ideal S8x128x2048 .f32) (hφ : FKind.Formats .f32)
    (hacc : (0x00000000#32 : BitVec 32) = 0x00000000#32) (r : Fin 8) (f : Fin 2048) :
    multiReduction .add [1] S8x2048 src 0x00000000#32 reduces_S8x128x2048_S8x2048 hφ hacc (ix2 r f)
      = ∑ k : Fin 128, src (ix3 r k f) := by
  refine (Ideal.multiReduction_add_single src 0x00000000#32 reduces_S8x128x2048_S8x2048 hφ hacc (ix2 r f)).trans ?_
  refine Finset.sum_congr rfl fun k _ => congrArg src ?_
  funext a
  match a with
  | ⟨0, _⟩ => rfl
  | ⟨1, _⟩ => rfl
  | ⟨2, _⟩ => rfl

/-- The weights' block [8, 128, 1] spread along the feature axis reads, at (r, k, f), its entry (r, k, 0). -/
theorem bcast_apply (x1 : Vec Ideal S8x128x1 .f32) (r : Fin 8) (k : Fin 128) (f : Fin 2048) :
    broadcastTo S8x128x2048 x1 broadcasts_S8x128x1_S8x128x2048 (ix3 r k f) = x1 (ix3 r k 0) := by
  refine broadcastTo_apply x1 _ (ix3 r k f) (ix3 r k 0) ?_
  intro a
  match a with
  | ⟨0, _⟩ => rfl
  | ⟨1, _⟩ => rfl
  | ⟨2, _⟩ => rfl

/-- The accumulation step at an index. -/
theorem pay2_apply (x0 : Vec Ideal S8x128x2048 .f32) (x1 : Vec Ideal S8x128x1 .f32) (prev : Vec Ideal S8x2048 .f32)
    (r : Fin 8) (f : Fin 2048) :
    k1_pay2 x0 x1 prev (ix2 r f) = prev (ix2 r f) + ∑ k : Fin 128, x0 (ix3 r k f) * x1 (ix3 r k 0) := by
  unfold k1_pay2
  rw [shapeCast_self, shapeCast_self]
  rw [addf_apply]
  refine congrArg (prev (ix2 r f) + ·) ?_
  refine (lane_sum _ _ _ r f).trans ?_
  refine Finset.sum_congr rfl fun k _ => ?_
  rw [mulf_apply, bcast_apply]

variable (V : (c : Dev nD) → (b : Ref sig .tc) → Buf (Elt Ideal) ((c : Thread nD τ).loc b))

/-- The features and the weights as the region finds them, and their blocks at a point. -/
abbrev feats (c : Dev nD) : S64x512x2048.Idx → EReal := V c main_arg1
abbrev wts (c : Dev nD) : S64x512x1.Idx → EReal := V c main_v13
abbrev fblk (c : Dev nD) (t : Fin cfg1.N) : Vec Ideal S8x128x2048 .f32 := R1.iblk1 V c 0 t
abbrev wblk (c : Dev nD) (t : Fin cfg1.N) : Vec Ideal S8x128x1 .f32 := R1.iblk1 V c 1 t
abbrev accAt (c : Dev nD) (n : ℕ) (hn : n < cfg1.N) : Vec Ideal S8x2048 .f32 := R1.acc1 V c n hn

/-- The block index maps over the grid: windows 0 and 1 sit at (batch block, time block, 0), window 2 at (batch block, 0). -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 2) = t.val / 4 ∧ win1_2.index t (1 : Fin 2) = 0 :=
  (by decide +kernel : ∀ t : Fin grid1.N, _)

/-- The features' block at a point, entry by entry. -/
theorem fblk_apply (c : Dev nD) (t : Fin cfg1.N) (r : Fin 8) (k : Fin 128) (f : Fin 2048)
    (p : Fin 64) (s : Fin 512) (hp : p.val = 8 * (t.val / 4) + r.val) (hs : s.val = 128 * (t.val % 4) + k.val) :
    fblk V c t (ix3 r k f) = feats V c (ix3 p s f) := by
  obtain ⟨e0, e1, e2, -⟩ := idx_facts t
  unfold fblk feats R1.iblk1
  rw [View.read_apply]
  show V c main_arg1 _ = V c main_arg1 _
  congr 1
  funext a
  apply Fin.ext
  match a with
  | ⟨0, _⟩ => show win1_0.index t (0 : Fin 3) * 8 + 1 * r.val = p.val; omega
  | ⟨1, _⟩ => show win1_0.index t (1 : Fin 3) * 128 + 1 * k.val = s.val; omega
  | ⟨2, _⟩ => show win1_0.index t (2 : Fin 3) * 2048 + 1 * f.val = f.val; omega

/-- The weights' block at a point, entry by entry. -/
theorem wblk_apply (c : Dev nD) (t : Fin cfg1.N) (r : Fin 8) (k : Fin 128)
    (p : Fin 64) (s : Fin 512) (hp : p.val = 8 * (t.val / 4) + r.val) (hs : s.val = 128 * (t.val % 4) + k.val) :
    wblk V c t (ix3 r k 0) = wts V c (ix3 p s 0) := by
  obtain ⟨-, -, -, e0, e1, e2, -⟩ := idx_facts t
  unfold wblk wts R1.iblk1
  rw [View.read_apply]
  show V c main_v13 _ = V c main_v13 _
  congr 1
  funext a
  apply Fin.ext
  match a with
  | ⟨0, _⟩ => show win1_1.index t (0 : Fin 3) * 8 + 1 * r.val = p.val; omega
  | ⟨1, _⟩ => show win1_1.index t (1 : Fin 3) * 128 + 1 * k.val = s.val; omega
  | ⟨2, _⟩ => show win1_1.index t (2 : Fin 3) * 1 + 1 * 0 = 0; omega

/-- Time block `q`'s weighted sum at (batch row `p`, feature `f`). -/
def blockSum (x : S64x512x2048.Idx → EReal) (w : S64x512x1.Idx → EReal) (p : Fin 64) (f : Fin 2048) (q : Fin 4) : EReal :=
  ∑ k : Fin 128, x (ix3 p (Spec.tIdx q k) f) * w (ix3 p (Spec.tIdx q k) 0)

/-- What a point adds: its two blocks' products summed over the block's 128 time steps are the time block's weighted sum. -/
theorem step_sum (c : Dev nD) (t : Fin cfg1.N) (r : Fin 8) (f : Fin 2048) (p : Fin 64) (q : Fin 4)
    (hp : p.val = 8 * (t.val / 4) + r.val) (hq : q.val = t.val % 4) :
    (∑ k : Fin 128, fblk V c t (ix3 r k f) * wblk V c t (ix3 r k 0)) = blockSum (feats V c) (wts V c) p f q := by
  unfold blockSum
  refine Finset.sum_congr rfl fun k _ => ?_
  have hs : (Spec.tIdx q k).val = 128 * (t.val % 4) + k.val := by
    show q.val * 128 + k.val = _
    omega
  rw [fblk_apply V c t r k f p (Spec.tIdx q k) hp hs, wblk_apply V c t r k p (Spec.tIdx q k) hp hs]

/-- After the first time block of a batch block. -/
theorem acc_q0 (c : Dev nD) (t : Fin cfg1.N) (h : t.val % 4 = 0) (r : Fin 8) (f : Fin 2048) (p : Fin 64)
    (hp : p.val = 8 * (t.val / 4) + r.val) :
    accAt V c t.val t.isLt (ix2 r f) = 0 + blockSum (feats V c) (wts V c) p f 0 := by
  refine (congrFun (R1.acc1_reset V c t h) (ix2 r f)).trans ?_
  refine (pay2_apply (fblk V c t) (wblk V c t) (k1_pay1 (F := Ideal)) r f).trans ?_
  exact congrArg₂ (· + ·) (pay1_apply r f) (step_sum V c t r f p 0 hp (by show 0 = _; omega))

/-- After the second. -/
theorem acc_q1 (c : Dev nD) (t : Fin cfg1.N) (h : t.val % 4 = 1) (r : Fin 8) (f : Fin 2048) (p : Fin 64)
    (hp : p.val = 8 * (t.val / 4) + r.val) :
    accAt V c t.val t.isLt (ix2 r f)
      = (0 + blockSum (feats V c) (wts V c) p f 0) + blockSum (feats V c) (wts V c) p f 1 := by
  refine (congrFun (R1.acc1_step V c t (by omega)) (ix2 r f)).trans ?_
  refine (pay2_apply (fblk V c t) (wblk V c t) (accAt V c (t.val - 1) (Nat.lt_of_le_of_lt (Nat.sub_le _ _) t.isLt)) r f).trans ?_
  exact congrArg₂ (· + ·)
    (acc_q0 V c ⟨t.val - 1, Nat.lt_of_le_of_lt (Nat.sub_le _ _) t.isLt⟩ (by show (t.val - 1) % 4 = 0; omega) r f p
      (by show p.val = 8 * ((t.val - 1) / 4) + r.val; omega))
    (step_sum V c t r f p 1 hp (by show 1 = _; omega))

/-- After the third. -/
theorem acc_q2 (c : Dev nD) (t : Fin cfg1.N) (h : t.val % 4 = 2) (r : Fin 8) (f : Fin 2048) (p : Fin 64)
    (hp : p.val = 8 * (t.val / 4) + r.val) :
    accAt V c t.val t.isLt (ix2 r f)
      = ((0 + blockSum (feats V c) (wts V c) p f 0) + blockSum (feats V c) (wts V c) p f 1)
        + blockSum (feats V c) (wts V c) p f 2 := by
  refine (congrFun (R1.acc1_step V c t (by omega)) (ix2 r f)).trans ?_
  refine (pay2_apply (fblk V c t) (wblk V c t) (accAt V c (t.val - 1) (Nat.lt_of_le_of_lt (Nat.sub_le _ _) t.isLt)) r f).trans ?_
  exact congrArg₂ (· + ·)
    (acc_q1 V c ⟨t.val - 1, Nat.lt_of_le_of_lt (Nat.sub_le _ _) t.isLt⟩ (by show (t.val - 1) % 4 = 1; omega) r f p
      (by show p.val = 8 * ((t.val - 1) / 4) + r.val; omega))
    (step_sum V c t r f p 2 hp (by show 2 = _; omega))

/-- After the fourth: the sum over all 512 time steps. -/
theorem acc_q3 (c : Dev nD) (t : Fin cfg1.N) (h : t.val % 4 = 3) (r : Fin 8) (f : Fin 2048) (p : Fin 64)
    (hp : p.val = 8 * (t.val / 4) + r.val) :
    accAt V c t.val t.isLt (ix2 r f) = ∑ s : Fin 512, feats V c (ix3 p s f) * wts V c (ix3 p s 0) := by
  refine (congrFun (R1.acc1_step V c t (by omega)) (ix2 r f)).trans ?_
  refine (pay2_apply (fblk V c t) (wblk V c t) (accAt V c (t.val - 1) (Nat.lt_of_le_of_lt (Nat.sub_le _ _) t.isLt)) r f).trans ?_
  refine Eq.trans ?_ (Spec.sum_blocks fun s : Fin 512 => feats V c (ix3 p s f) * wts V c (ix3 p s 0))
  exact congrArg₂ (· + ·)
    (acc_q2 V c ⟨t.val - 1, Nat.lt_of_le_of_lt (Nat.sub_le _ _) t.isLt⟩ (by show (t.val - 1) % 4 = 2; omega) r f p
      (by show p.val = 8 * ((t.val - 1) / 4) + r.val; omega))
    (step_sum V c t r f p 3 hp (by show 3 = _; omega))

/-- The specification at an index whose coordinates are known. -/
theorem wsum_at (x : S64x512x2048.Idx → EReal) (w : S64x512x1.Idx → EReal) (i : S64x2048.Idx) (p : Fin 64) (f : Fin 2048)
    (h0 : (i 0).val = p.val) (h1 : (i 1).val = f.val) :
    Spec.wsum x w i = ∑ s : Fin 512, x (ix3 p s f) * w (ix3 p s 0) := by
  obtain rfl : i 0 = p := Fin.ext h0
  obtain rfl : i 1 = f := Fin.ext h1
  rfl

/-- The specification as contents of the output array. -/
abbrev target (c : Dev nD) : Buf (Elt Ideal) ((c : Thread nD τ).loc main_v14) := Spec.wsum (feats V c) (wts V c)

/-- What a flushing point writes back is its block of the specification: rows 8·bi … 8·bi + 7. -/
theorem flushed_eq (c : Dev nD) (t : Fin cfg1.N) (hf : (cfg1.win 2).flush t = true) :
    (R1.dat1 V c).flushed 2 t = ((cfg1.win 2).blk t).view.read (Elt Ideal) (target V c) := by
  have h3 : t.val % 4 = 3 := (flush1_2 t).mp hf
  obtain ⟨-, -, -, -, -, -, e0, e1⟩ := idx_facts t
  show (cfg1.win 2).cut (grid1.coords t) ((R1.dat1 V c).after 2 t) = _
  rw [R1.after1_2]
  funext j
  rw [View.read_apply]
  have hj0 : (j 0).val < 8 := (j 0).isLt
  have hj1 : (j 1).val < 2048 := (j 1).isLt
  have hN : t.val < 32 := Nat.lt_of_lt_of_eq t.isLt N_1
  have hx : (cfg1.win 2).xinj (grid1.coords t) j = ix2 (⟨(j 0).val, hj0⟩ : Fin 8) (⟨(j 1).val, hj1⟩ : Fin 2048) :=
    funext fun a => match a with | ⟨0, _⟩ => rfl | ⟨1, _⟩ => rfl
  show accAt V c t.val t.isLt ((cfg1.win 2).xinj (grid1.coords t) j) = Spec.wsum (feats V c) (wts V c) (((cfg1.win 2).blk t).view.emb j)
  rw [hx]
  refine (acc_q3 V c t h3 ⟨(j 0).val, hj0⟩ ⟨(j 1).val, hj1⟩ ⟨8 * (t.val / 4) + (j 0).val, by omega⟩ rfl).trans ?_
  refine (wsum_at (feats V c) (wts V c) (((cfg1.win 2).blk t).view.emb j) _ _ ?_ ?_).symm
  · show win1_2.index t (0 : Fin 2) * 8 + 1 * (j 0).val = 8 * (t.val / 4) + (j 0).val; omega
  · show win1_2.index t (1 : Fin 2) * 2048 + 1 * (j 1).val = (j 1).val; omega

/-- An index of the array is in a point's block iff each coordinate is in the block's range on its axis. -/
theorem mem_blk (t : Fin cfg1.N) (i : S64x2048.Idx) :
    i ∈ ((cfg1.win 2).blk t).view.set ↔ ∀ a : Fin 2, win1_2.index t a * S8x2048.size a ≤ (i a).val ∧ (i a).val < win1_2.index t a * S8x2048.size a + S8x2048.size a := by
  show i ∈ ((View.whole main_v14).slice (win1_2.rect t)).set ↔ _
  rw [View.set_slice_whole, Rect.mem_set_unit]
  exact Iff.rfl

/-- The grid has 32 points. -/
theorem lt_N {n : ℕ} (h : n < 32) : n < cfg1.N := Nat.lt_of_lt_of_eq h N_1.symm

/-- Row `p` of the array lies in the block written back after the fourth time block of batch block `p / 8`. -/
theorem cover (i : S64x2048.Idx) : ∃ t : Fin cfg1.N, (cfg1.win 2).flush t = true ∧ i ∈ ((cfg1.win 2).blk t).view.set := by
  have hi0 : (i 0).val < 64 := (i 0).isLt
  have hi1 : (i 1).val < 2048 := (i 1).isLt
  have hlt : 4 * ((i 0).val / 8) + 3 < cfg1.N := lt_N (by omega)
  refine ⟨⟨4 * ((i 0).val / 8) + 3, hlt⟩, (flush1_2 _).mpr (by show (4 * ((i 0).val / 8) + 3) % 4 = 3; omega), ?_⟩
  obtain ⟨-, -, -, -, -, -, e0, e1⟩ := idx_facts ⟨4 * ((i 0).val / 8) + 3, hlt⟩
  have e0' : win1_2.index ⟨4 * ((i 0).val / 8) + 3, hlt⟩ (0 : Fin 2) = (4 * ((i 0).val / 8) + 3) / 4 := e0
  rw [mem_blk]
  intro a
  match a with
  | ⟨0, _⟩ =>
    show win1_2.index _ (0 : Fin 2) * 8 ≤ (i 0).val ∧ (i 0).val < win1_2.index _ (0 : Fin 2) * 8 + 8
    omega
  | ⟨1, _⟩ =>
    show win1_2.index _ (1 : Fin 2) * 2048 ≤ (i 1).val ∧ (i 1).val < win1_2.index _ (1 : Fin 2) * 2048 + 2048
    omega

/-- The output array after the region is the specification of the arrays the region is entered with. -/
theorem final (c : Dev nD) : (R1.dat1 V c).arrAt 2 cfg1.N = target V c :=
  (R1.dat1 V c).arrAt_eq_of_cover 2 (target V c) (flushed_eq V c) cover

/-- What region 1 leaves in `main_v14` is the weighted sum over time of the features it is entered with, by the weights
    it is entered with. -/
theorem o3_eq (c : Dev nD) :
    Run.o3 (F := Ideal) m c = Cert.Spec.wsum (Run.Vin1 (F := Ideal) m c main_arg1) (Run.Vin1 (F := Ideal) m c main_v13) :=
  final (Run.Vin1 (F := Ideal) m) c

end Cert.KernelIdeal.Val1

end
-- ==== Proof.RefVal.lean ====
/-
  The reference's two results, read index by index off its run, are the specification's functions of the arguments:
  the softmax over time of the energies, and the features' weighted sum over time.
-/
import proofs.«176767_j22514218566280_1_alg».proof.Defs
import proofs.«176767_j22514218566280_1_alg».proof.Proof.Gen.ReferenceIdeal.Run
import proofs.«176767_j22514218566280_1_alg».proof.Proof.Gen.ReferenceIdeal.Read
import proofs.«176767_j22514218566280_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Idealize.ShloMosaic Idealize.ShloMosaic.TcCoe Idealize.ShloMosaic.ValueIdx
open Idealize.SL.Sem
open Cert.ReferenceIdeal Cert.ReferenceIdeal.Gen

/-! ## The energies

  The six arguments as plain arrays over the extended reals; each stage of the reference read at explicit coordinates. -/

section Stages

variable (x0 : (⟨S64x1024, .f32⟩ : BufTy).Contents (Elt Ideal)) (x1 : (⟨S64x512x2048, .f32⟩ : BufTy).Contents (Elt Ideal))
  (x2 : (⟨S512x1024, .f32⟩ : BufTy).Contents (Elt Ideal)) (x3 : (⟨S512x2048, .f32⟩ : BufTy).Contents (Elt Ideal))
  (x4 : (⟨S512, .f32⟩ : BufTy).Contents (Elt Ideal)) (x5 : (⟨S1x512, .f32⟩ : BufTy).Contents (Elt Ideal))

/-- The hidden state against the transposed W: the contraction over the 1024 hidden units reads W at (κ, h). -/
theorem hiddenProj_at (p : Fin 64) (κ : Fin 512) :
    Read.val_main_v1 (F := Ideal) x0 x2 (ix2 p κ) = Cert.Spec.wh x0 x2 p κ := by
  rw [Read.val_main_v1_apply]
  unfold Cert.Spec.wh
  refine Finset.sum_congr rfl fun h _ => ?_
  rw [Read.val_main_v0_apply]
  have el : Read.lidx_main_v1 (ix2 p κ) h = ix2 p h :=
    funext fun a => Fin.ext (by match a with | ⟨0, _⟩ => rfl | ⟨1, _⟩ => rfl)
  have er : Read.idx_main_v0 (Read.ridx_main_v1 (ix2 p κ) h) = ix2 κ h :=
    funext fun a => Fin.ext (by match a with | ⟨0, _⟩ => rfl | ⟨1, _⟩ => rfl)
  rw [el, er]

/-- The features against U: the contraction over the 2048 feature channels. -/
theorem featProj_at (p : Fin 64) (t : Fin 512) (κ : Fin 512) :
    Read.val_main_v2 (F := Ideal) x1 x3 (ix3 p t κ) = Cert.Spec.uv x1 x3 p t κ := by
  rw [Read.val_main_v2_apply]
  unfold Cert.Spec.uv
  refine Finset.sum_congr rfl fun f _ => ?_
  have el : Read.lidx_main_v2 (ix3 p t κ) f = ix3 p t f :=
    funext fun a => Fin.ext (by match a with | ⟨0, _⟩ => rfl | ⟨1, _⟩ => rfl | ⟨2, _⟩ => rfl)
  have er : Read.ridx_main_v2 (ix3 p t κ) f = ix2 κ f :=
    funext fun a => Fin.ext (by match a with | ⟨0, _⟩ => rfl | ⟨1, _⟩ => rfl)
  rw [el, er]

/-- The tanh's argument at (p, t, κ): the hidden projection broadcast over time, plus the feature projection, plus the
    bias broadcast over batch and time. -/
theorem preact_at (p : Fin 64) (t : Fin 512) (κ : Fin 512) :
    Read.val_main_v8 (F := Ideal) x0 x1 x2 x3 x4 (ix3 p t κ)
      = (Cert.Spec.wh x0 x2 p κ + Cert.Spec.uv x1 x3 p t κ) + x4 (ix1 κ) := by
  have e3 : Read.idx_main_v3 (Read.idx_main_v4 (ix3 p t κ)) = ix2 p κ :=
    funext fun a => Fin.ext (by match a with | ⟨0, _⟩ => rfl | ⟨1, _⟩ => rfl)
  have e6 : Read.idx_main_v6 (Read.idx_main_v7 (ix3 p t κ)) = ix1 κ :=
    funext fun a => Fin.ext (by match a with | ⟨0, _⟩ => rfl)
  rw [Read.val_main_v8_apply, Read.val_main_v5_apply, Read.val_main_v4_apply, Read.val_main_v3_apply,
    Read.val_main_v7_apply, Read.val_main_v6_apply, e3, e6, hiddenProj_at, featProj_at]
  rfl

/-- The energy at (p, t): the contraction of the tanh over the 512 bottleneck units against w's one row. -/
theorem energy_at (p : Fin 64) (t : Fin 512) (z : Fin 1) :
    Read.val_main_v10 (F := Ideal) x0 x1 x2 x3 x4 x5 (ix3 p t z) = Cert.Spec.energyAt x0 x1 x2 x3 x4 x5 p t := by
  obtain rfl : z = 0 := Subsingleton.elim _ _
  rw [Read.val_main_v10_apply]
  unfold Cert.Spec.energyAt
  refine Finset.sum_congr rfl fun κ _ => ?_
  have el : Read.lidx_main_v10 (ix3 p t (0 : Fin 1)) κ = ix3 p t κ :=
    funext fun a => Fin.ext (by match a with | ⟨0, _⟩ => rfl | ⟨1, _⟩ => rfl | ⟨2, _⟩ => rfl)
  have er : Read.ridx_main_v10 (ix3 p t (0 : Fin 1)) κ = ix2 (0 : Fin 1) κ :=
    funext fun a => Fin.ext (by match a with | ⟨0, _⟩ => rfl | ⟨1, _⟩ => rfl)
  rw [el, er, Read.val_main_v9_apply, preact_at, Ideal.hostUnary_tanh_def]

/-- The tenth stage is the specification's energy array. -/
theorem energy_eq :
    Read.val_main_v10 (F := Ideal) x0 x1 x2 x3 x4 x5 = Cert.Spec.energy x0 x1 x2 x3 x4 x5 := by
  funext i
  obtain ⟨p, t, z, rfl⟩ : ∃ (p : Fin 64) (t : Fin 512) (z : Fin 1), i = ix3 p t z := ⟨i 0, i 1, i 2, eq_ix3 i⟩
  rw [energy_at]
  rfl

/-! ## The softmax over time -/

/-- A batch row of the reduced shape with time step `k` put back at axis 1 is (p, k, 0). -/
theorem lift_time (h : S64x512x1.Reduces [1] S64x1) (p : Fin 64) (k : Fin (S64x512x1.size 1)) :
    h.lift (ix2 p (0 : Fin 1)) k = ix3 p (⟨k.val, k.isLt⟩ : Fin 512) (0 : Fin 1) :=
  funext fun a => Fin.ext (by match a with | ⟨0, _⟩ => rfl | ⟨1, _⟩ => rfl | ⟨2, _⟩ => rfl)

/-- The max-reduce over time from the −∞ word, at batch row `p`, is the fold of `max` from that word over the row's
    512 entries. -/
theorem reduceMax_at (e : (⟨S64x512x1, .f32⟩ : BufTy).Contents (Elt Ideal)) (p : Fin 64) :
    Host.reduce (α := Ideal .f32) (FloatOps.maximumf (F := Ideal) (φ := .f32)) e (Read.val_main_cst (F := Ideal)) reducesTo_S64x512x1_S64x1_d1 h_S_ (ix2 p (0 : Fin 1))
      = Finset.univ.fold max Cert.Spec.ninf fun t : Fin 512 => e (ix3 p t (0 : Fin 1)) := by
  have h : S64x512x1.Reduces [1] S64x1 := by decide
  refine (Host.reduce_eq_fold_single (α := Ideal .f32) (FloatOps.maximumf (F := Ideal) (φ := .f32)) e
    (Read.val_main_cst (F := Ideal)) reducesTo_S64x512x1_S64x1_d1 h h_S_ (ix2 p (0 : Fin 1))).trans ?_
  have hf : (e ∘ h.lift (ix2 p (0 : Fin 1))) = fun t : Fin 512 => e (ix3 p t (0 : Fin 1)) :=
    funext fun k => congrArg e (lift_time h p k)
  exact congrArg (fun f => Finset.fold max Cert.Spec.ninf f (Finset.univ : Finset (Fin 512))) hf

/-- The row maximum as the reference takes it: the maximum of the −∞ word and the reduce. -/
theorem rowMax_at (p : Fin 64) (z : Fin 1) :
    Read.val_main_v13 (F := Ideal) x0 x1 x2 x3 x4 x5 (ix2 p z)
      = Cert.Spec.rowMax (Read.val_main_v10 (F := Ideal) x0 x1 x2 x3 x4 x5) p := by
  obtain rfl : z = 0 := Subsingleton.elim _ _
  rw [Read.val_main_v13_apply, Read.val_main_v12_apply, Read.val_main_cst_0_apply]
  unfold Read.val_main_v11 Cert.Spec.rowMax
  generalize Read.val_main_v10 (F := Ideal) x0 x1 x2 x3 x4 x5 = e
  rw [reduceMax_at, Ideal.maximumf_def, Ideal.ofBits_def]

/-- The shifted exponential at (p, t). -/
theorem expo_at (p : Fin 64) (t : Fin 512) (z : Fin 1) :
    Read.val_main_v17 (F := Ideal) x0 x1 x2 x3 x4 x5 (ix3 p t z)
      = Cert.Spec.expo (Read.val_main_v10 (F := Ideal) x0 x1 x2 x3 x4 x5) p t := by
  obtain rfl : z = 0 := Subsingleton.elim _ _
  have e14 : Read.idx_main_v14 (Read.idx_main_v15 (ix3 p t (0 : Fin 1))) = ix2 p (0 : Fin 1) :=
    funext fun a => Fin.ext (by match a with | ⟨0, _⟩ => rfl | ⟨1, _⟩ => rfl)
  rw [Read.val_main_v17_apply, Read.val_main_v16_apply, Read.val_main_v15_apply, Read.val_main_v14_apply, e14,
    rowMax_at, Ideal.hostUnary_exp_def, Ideal.subf_def]
  rfl

/-- The softmax's denominator at batch row `p`: the sum over time from the zero word. -/
theorem denom_at (p : Fin 64) (z : Fin 1) :
    Read.val_main_v18 (F := Ideal) x0 x1 x2 x3 x4 x5 (ix2 p z)
      = Cert.Spec.denom (Read.val_main_v10 (F := Ideal) x0 x1 x2 x3 x4 x5) p := by
  rw [Read.val_main_v18_apply, Read.val_main_cst_1_apply, Ideal.ofBits_def, Ideal.ofBits_zero_f32, zero_add]
  unfold Cert.Spec.denom
  refine Finset.sum_congr rfl fun t _ => ?_
  have e18 : Read.idx_main_v18 (ix2 p z) t = ix3 p t z :=
    funext fun a => Fin.ext (by match a with | ⟨0, _⟩ => rfl | ⟨1, _⟩ => rfl | ⟨2, _⟩ => rfl)
  rw [e18, expo_at]

/-- The softmax at (p, t). -/
theorem softmax_at (p : Fin 64) (t : Fin 512) (z : Fin 1) :
    Read.val_main_v21 (F := Ideal) x0 x1 x2 x3 x4 x5 (ix3 p t z)
      = Ideal.div (Cert.Spec.expo (Read.val_main_v10 (F := Ideal) x0 x1 x2 x3 x4 x5) p t)
          (Cert.Spec.denom (Read.val_main_v10 (F := Ideal) x0 x1 x2 x3 x4 x5) p) := by
  have e19 : Read.idx_main_v19 (Read.idx_main_v20 (ix3 p t z)) = ix2 p (0 : Fin 1) :=
    funext fun a => Fin.ext (by match a with | ⟨0, _⟩ => rfl | ⟨1, _⟩ => rfl)
  rw [Read.val_main_v21_apply, Read.val_main_v20_apply, Read.val_main_v19_apply, e19, expo_at, denom_at,
    Ideal.hostDivf_def]

/-- The twenty-first stage is the specification's softmax of the specification's energies. -/
theorem softmax_eq :
    Read.val_main_v21 (F := Ideal) x0 x1 x2 x3 x4 x5 = Cert.Spec.softmax3 (Cert.Spec.energy x0 x1 x2 x3 x4 x5) := by
  funext i
  obtain ⟨p, t, z, rfl⟩ : ∃ (p : Fin 64) (t : Fin 512) (z : Fin 1), i = ix3 p t z := ⟨i 0, i 1, i 2, eq_ix3 i⟩
  rw [softmax_at, energy_eq]
  rfl

/-! ## The attended features -/

/-- The features' sum over time weighted by the softmax broadcast over the 2048 channels, from the zero word. -/
theorem wsum_at (p : Fin 64) (f : Fin 2048) :
    Read.val_main_v24 (F := Ideal) x0 x1 x2 x3 x4 x5 (ix2 p f)
      = ∑ t : Fin 512, x1 (ix3 p t f) * Cert.Spec.softmax3 (Cert.Spec.energy x0 x1 x2 x3 x4 x5) (ix3 p t (0 : Fin 1)) := by
  rw [Read.val_main_v24_apply, Read.val_main_cst_2_apply, Ideal.ofBits_def, Ideal.ofBits_zero_f32, zero_add]
  refine Finset.sum_congr rfl fun t _ => ?_
  have e24 : Read.idx_main_v24 (ix2 p f) t = ix3 p t f :=
    funext fun a => Fin.ext (by match a with | ⟨0, _⟩ => rfl | ⟨1, _⟩ => rfl | ⟨2, _⟩ => rfl)
  have e22 : Read.idx_main_v22 (ix3 p t f) = ix3 p t (0 : Fin 1) :=
    funext fun a => Fin.ext (by match a with | ⟨0, _⟩ => rfl | ⟨1, _⟩ => rfl | ⟨2, _⟩ => rfl)
  rw [e24, Read.val_main_v23_apply, Read.val_main_v22_apply, e22, softmax_eq, Ideal.mulf_def]

/-- The twenty-fourth stage is the specification's weighted sum. -/
theorem wsum_eq :
    Read.val_main_v24 (F := Ideal) x0 x1 x2 x3 x4 x5
      = Cert.Spec.wsum x1 (Cert.Spec.softmax3 (Cert.Spec.energy x0 x1 x2 x3 x4 x5)) := by
  funext j
  obtain ⟨p, f, rfl⟩ : ∃ (p : Fin 64) (f : Fin 2048), j = ix2 p f := ⟨j 0, j 1, eq_ix2 j⟩
  rw [wsum_at]
  rfl

end Stages

/-! ## The run's two results -/

variable (m : (ℓ : Loc nD τ sig) → Buf (Elt Ideal) ℓ)

/-- The reference's second result: the softmax over time of the energies. -/
theorem out1_eq (c : Dev nD) :
    Cert.ReferenceIdeal.Value.res_out1 (F := Ideal) m c
      = Cert.Spec.softmax3 (Cert.Spec.energy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (Read.val_main_v21_eq (F := Ideal) m c).trans (softmax_eq _ _ _ _ _ _)

/-- The reference's first result: the features' sum over time weighted by that softmax. -/
theorem out0_eq (c : Dev nD) :
    Cert.ReferenceIdeal.Value.res_out0 (F := Ideal) m c
      = Cert.Spec.wsum (m ((c.tc : Thread nD τ).loc main_arg1)) (Cert.Spec.softmax3 (Cert.Spec.energy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) :=
  (Read.val_main_v24_eq (F := Ideal) m c).trans (wsum_eq _ _ _ _ _ _)

end Cert.ReferenceIdeal.RefValue

end
-- ==== Proof.lean ====
/-
  The proof of `Cert.Claim`.

  Both programs compute, over the extended reals, the same three functions of the argument arrays (Proof/Spec.lean):
  the energies e(p, t) = Σ_κ tanh((Σ_h hidden(p, h) · W(κ, h) + Σ_f feats(p, t, f) · U(κ, f)) + b(κ)) · w(0, κ), their softmax
  over time, and the features' sum over time weighted by it. The kernel program computes the energies block by block in
  its first region (Proof/Val0.lean), the softmax in host operations between the regions (Proof/HostVal.lean), and the
  weighted sum in its second region, four time blocks at a time into an accumulator (Proof/Val1.lean: the accumulated
  value is the one sum over time because addition on the extended reals is associative and commutative); the reference
  computes all three in host operations (Proof/RefVal.lean). No law used needs the inputs finite, so the precondition is
  never opened. The frames of the two kernel programs are one text, generic in the float instance, read at the word
  level and at the ideal values (Proof/KernelIdeal/Run.lean and its layout Proof/Kernel/Run.lean); the reference's frame
  is its run with the results dropped. The idealization rewrote no operation, so `preserves` asks nothing.
-/
import proofs.«176767_j22514218566280_1_alg».proof.Defs
import proofs.«176767_j22514218566280_1_alg».proof.Proof.Gen.Kernel
import proofs.«176767_j22514218566280_1_alg».proof.Proof.Gen.KernelIdeal
import proofs.«176767_j22514218566280_1_alg».proof.Proof.Gen.ReferenceIdeal
import proofs.«176767_j22514218566280_1_alg».proof.Proof.Gen.Pre_finite_inputs
import proofs.«176767_j22514218566280_1_alg».proof.Proof.Gen.ReferenceIdeal.Run
import proofs.«176767_j22514218566280_1_alg».proof.Proof.Kernel.Run
import proofs.«176767_j22514218566280_1_alg».proof.Proof.KernelIdeal.Run
import proofs.«176767_j22514218566280_1_alg».proof.Proof.Val0
import proofs.«176767_j22514218566280_1_alg».proof.Proof.HostVal
import proofs.«176767_j22514218566280_1_alg».proof.Proof.Val1
import proofs.«176767_j22514218566280_1_alg».proof.Proof.RefVal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Run.frame (F := Bits) m ρ

/-- So does the idealized kernel program. -/
theorem frame_pi : Cert.frame_KernelIdeal := fun m ρ _ => Cert.KernelIdeal.Run.frame (F := Ideal) m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: there is no ledger entry to restate. -/
theorem preserves : Cert.preserves_Kernel_KernelIdeal := trivial

/-- From memories agreeing on the arguments both idealized programs end with the features' weighted sum over time and
    the softmax weights of the energies, as functions of the arguments: the same two arrays. -/
theorem algebraic : Cert.algebraic_KernelIdeal_ReferenceIdeal := by
  intro m ρ m' ρ' _ hagree
  refine ⟨fun c => Cert.Spec.wsum (m ((c.tc : Thread Cert.KernelIdeal.nD Cert.KernelIdeal.τ).loc Cert.KernelIdeal.main_arg1)) (Cert.Spec.softmax3 (Cert.Spec.energy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))),
    fun c => Cert.Spec.softmax3 (Cert.Spec.energy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · refine (θ_run Cert.KernelIdeal.defs _ _).mono (fun r h c => ?_) (Cert.KernelIdeal.Run.run_results (F := Ideal) m ρ)
    obtain ⟨h14, h13, hargs⟩ := h c
    refine ⟨h14.trans ?_, h13.trans ?_, hargs⟩
    · rw [Cert.KernelIdeal.Val1.o3_eq, Cert.KernelIdeal.HostVal.arg1_eq, Cert.KernelIdeal.HostVal.v13_eq, Cert.KernelIdeal.Val0.o1_eq]
    · rw [Cert.KernelIdeal.HostVal.v13_eq, Cert.KernelIdeal.Val0.o1_eq]
  · refine (θ_run Cert.ReferenceIdeal.defs _ _).mono (fun r h c => ?_) (Cert.ReferenceIdeal.Value.run (F := Ideal) m' ρ')
    obtain ⟨h24, h21, hargs⟩ := h c
    obtain ⟨e0, e1, e2, e3, e4, e5⟩ := hagree c
    refine ⟨h24.trans ?_, h21.trans ?_, hargs⟩
    · exact (Cert.ReferenceIdeal.RefValue.out0_eq m' c).trans (by rw [e0, e1, e2, e3, e4, e5])
    · exact (Cert.ReferenceIdeal.RefValue.out1_eq m' c).trans (by rw [e0, e1, e2, e3, e4, e5])

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
